-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩
abbrev S1x600000 : Shape := ⟨2, ![1, 600000]⟩
abbrev S600000 : Shape := ⟨1, ![600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part1 {F : FTy → Type} [FloatOps F] (main_arg1 : IVec S2x600000 32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x600000 32 := (extractStridedSlice S1x600000 ![0, 0] · slices_S2x600000_S1x600000_0_0) main_arg1
  let main_v25 : IVec S600000 32 := shapeCast S600000 main_v24 shapeCasts_S1x600000_S600000
  let main_c_8 : IVec S_ 32 := constantI S_ 32 4294917296#32
  let main_v26 : IVec S600000 32 := broadcastInDim S600000 ![] bcast_S_S600000 main_c_8
  let main_v27 : IVec S600000 1 := cmpi .sge main_v25 main_v26
  let main_v28 : IVec S1x600000 32 := (extractStridedSlice S1x600000 ![0, 0] · slices_S2x600000_S1x600000_0_0) main_arg1
  let main_v29 : IVec S600000 32 := shapeCast S600000 main_v28 shapeCasts_S1x600000_S600000
  let main_c_9 : IVec S_ 32 := constantI S_ 32 50000#32
  let main_v30 : IVec S600000 32 := broadcastInDim S600000 ![] bcast_S_S600000 main_c_9
  let main_v31 : IVec S600000 1 := cmpi .slt main_v29 main_v30
  let main_v32 : IVec S600000 1 := andi main_v27 main_v31
  let main_c_10 : IVec S_ 1 := constantI S_ 1 1#1
  let main_v33 : IVec S_ 1 := (fun x v => Host.reduce IntOp.andi x v reducesTo_S600000_S_d0 h_S_) main_v32 main_c_10
  let main_v34 : IVec S_ 1 := andi main_v23 main_v33
  main_v34

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S2000x128 : Shape := ⟨2, ![2000, 128]⟩
abbrev S_ : Shape := ⟨0, ![]⟩
abbrev S650000x1 : Shape := ⟨2, ![650000, 1]⟩
abbrev S1 : Shape := ⟨1, ![1]⟩
abbrev S1x1 : Shape := ⟨2, ![1, 1]⟩
abbrev S650000x128 : Shape := ⟨2, ![650000, 128]⟩
abbrev S2000 : Shape := ⟨1, ![2000]⟩
abbrev S2000x1 : Shape := ⟨2, ![2000, 1]⟩

abbrev nBuf : Space → Nat
  | .hbm => 74
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S1x128, .f32⟩
  | .hbm, ⟨14, _⟩ => ⟨S1x128, .f32⟩
  | .hbm, ⟨15, _⟩ => ⟨S50000x128, .f32⟩
  | .hbm, ⟨16, _⟩ => ⟨S_, .i32⟩
  | .hbm, ⟨17, _⟩ => ⟨S650000, .i32⟩
  | .hbm, ⟨18, _⟩ => ⟨S650000, .i1⟩
  | .hbm, ⟨19, _⟩ => ⟨S_, .i32⟩
  | .hbm, ⟨20, _⟩ => ⟨S650000, .i32⟩
  | .hbm, ⟨21, _⟩ => ⟨S650000, .i32⟩
  | .hbm, ⟨22, _⟩ => ⟨S650000, .i32⟩
  | .hbm, ⟨23, _⟩ => ⟨S650000x1, .i32⟩
  | .hbm, ⟨24, _⟩ => ⟨S1, .i32⟩
  | .hbm, ⟨25, _⟩ => ⟨S_, .i32⟩
  | .hbm, ⟨26, _⟩ => ⟨S650000x1, .i32⟩
  | .hbm, ⟨27, _⟩ => ⟨S650000x1, .i1⟩
  | .hbm, ⟨28, _⟩ => ⟨S1x1, .i32⟩
  | .hbm, ⟨29, _⟩ => ⟨S650000x1, .i32⟩
  | .hbm, ⟨30, _⟩ => ⟨S650000x1, .i1⟩
  | .hbm, ⟨31, _⟩ => ⟨S650000x1, .i1⟩
  | .hbm, ⟨32, _⟩ => ⟨S_, .i1⟩
  | .hbm, ⟨33, _⟩ => ⟨S650000, .i1⟩
  | .hbm, ⟨34, _⟩ => ⟨S650000x128, .f32⟩
  | .hbm, ⟨35, _⟩ => ⟨S650000x128, .i1⟩
  | .hbm, ⟨36, _⟩ => ⟨S_, .f32⟩
  | .hbm, ⟨37, _⟩ => ⟨S650000x128, .f32⟩
  | .hbm, ⟨38, _⟩ => ⟨S650000x128, .f32⟩
  | .hbm, ⟨39, _⟩ => ⟨S_, .f32⟩
  | .hbm, ⟨40, _⟩ => ⟨S50000x128, .f32⟩
  | .hbm, ⟨41, _⟩ => ⟨S650000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S1, .i32⟩
  | .hbm, ⟨55, _⟩ => ⟨S_, .i32⟩
  | .hbm, ⟨56, _⟩ => ⟨S650000x1, .i32⟩
  | .hbm, ⟨57, _⟩ => ⟨S650000x1, .i1⟩
  | .hbm, ⟨58, _⟩ => ⟨S1x1, .i32⟩
  | .hbm, ⟨59, _⟩ => ⟨S650000x1, .i32⟩
  | .hbm, ⟨60, _⟩ => ⟨S650000x1, .i1⟩
  | .hbm, ⟨61, _⟩ => ⟨S650000x1, .i1⟩
  | .hbm, ⟨62, _⟩ => ⟨S_, .i1⟩
  | .hbm, ⟨63, _⟩ => ⟨S650000, .i1⟩
  | .hbm, ⟨64, _⟩ => ⟨S650000x128, .f32⟩
  | .hbm, ⟨65, _⟩ => ⟨S650000x128, .i1⟩
  | .hbm, ⟨66, _⟩ => ⟨S_, .f32⟩
  | .hbm, ⟨67, _⟩ => ⟨S650000x128, .f32⟩
  | .hbm, ⟨68, _⟩ => ⟨S650000x128, .f32⟩
  | .hbm, ⟨69, _⟩ => ⟨S_, .f32⟩
  | .hbm, ⟨70, _⟩ => ⟨S50000x128, .f32⟩
  | .hbm, ⟨71, _⟩ => ⟨S650000x1, .i32⟩
  | .hbm, ⟨72, _⟩ => ⟨S50000x128, .f32⟩
  | .hbm, ⟨73, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v17 : Ref sig .tc := ⟨.hbm, 68, rfl⟩
abbrev main_cst_0 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S650000 : S_.BroadcastsInDim S650000 (![] : Fin 0 → Fin S650000.rank)
  bcast_S650000_S650000x1_0 : S650000.BroadcastsInDim S650000x1 (![0] : Fin 1 → Fin S650000x1.rank)
  bcast_S_S650000x1 : S_.BroadcastsInDim S650000x1 (![] : Fin 0 → Fin S650000x1.rank)
  bcast_S1_S1x1_1 : S1.BroadcastsInDim S1x1 (![1] : Fin 1 → Fin S1x1.rank)
  bcast_S1x1_S650000x1_0_1 : S1x1.BroadcastsInDim S650000x1 (![0, 1] : Fin 2 → Fin S650000x1.rank)
  reducesTo_S650000x1_S650000_d1 : S650000x1.ReducesTo [1] S650000
  h_S_ : 0 < S_.numel
  bcast_S650000_S650000x128_0 : S650000.BroadcastsInDim S650000x128 (![0] : Fin 1 → Fin S650000x128.rank)
  bcast_S_S650000x128 : S_.BroadcastsInDim S650000x128 (![] : Fin 0 → Fin S650000x128.rank)
  bcast_S_S50000x128 : S_.BroadcastsInDim S50000x128 (![] : Fin 0 → Fin S50000x128.rank)
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  dot_S2000x128_S128x128_S2000x128_1_1_0_0_n_n_wf : DotDims.WF S2000x128 S128x128 S2000x128 [1] [1] [0] [0] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)

variable [Facts₀]

def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v20) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S2000x128.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x600000, .i32⟩
  | .hbm, ⟨8, _⟩ => ⟨S600000, .i32⟩
  | .hbm, ⟨9, _⟩ => ⟨S650000, .i32⟩
  | .hbm, ⟨10, _⟩ => ⟨S1x600000, .i32⟩
  | .hbm, ⟨11, _⟩ => ⟨S600000, .i32⟩
  | .hbm, ⟨12, _⟩ => ⟨S650000, .i32⟩
  | .hbm, ⟨13, _⟩ => ⟨S128x128, .f32⟩
  | .hbm, ⟨14, _⟩ => ⟨S50000x128, .f32⟩
  | .hbm, ⟨15, _⟩ => ⟨S1x128, .f32⟩
  | .hbm, ⟨16, _⟩ => ⟨S50000x128, .f32⟩
  | .hbm, ⟨17, _⟩ => ⟨S50000x128, .f32⟩
  | .hbm, ⟨18, _⟩ => ⟨S128x128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000x128, .f32⟩
  | .hbm, ⟨32, _⟩ => ⟨S_, .f32⟩
  | .hbm, ⟨33, _⟩ => ⟨S50000x128, .f32⟩
  | .hbm, ⟨34, _⟩ => ⟨S650000x1, .i32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S650000, .i32⟩
  | .hbm, ⟨48, _⟩ => ⟨S650000, .i1⟩
  | .hbm, ⟨49, _⟩ => ⟨S_, .i32⟩
  | .hbm, ⟨50, _⟩ => ⟨S650000, .i32⟩
  | .hbm, ⟨51, _⟩ => ⟨S650000, .i32⟩
  | .hbm, ⟨52, _⟩ => ⟨S650000, .i32⟩
  | .hbm, ⟨53, _⟩ => ⟨S650000x1, .i32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S_, .f32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_1 : Ref sig .tc := ⟨.hbm, 46, rfl⟩
abbrev main_v37 : Ref sig .tc := ⟨.hbm, 47, rfl⟩
abbrev main_v38 : Ref sig .tc := ⟨.hbm, 48, rfl⟩
abbrev main_c_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_cst : Ref sig .tc := ⟨.hbm, 59, rfl⟩
abbrev main_call0_v0 : Ref sig .tc := ⟨.hbm, 60, rfl⟩
abbrev main_call0_cst_0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_cst_1 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  reducesTo_S50000x128_S50000_d1 : S50000x128.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf

class Facts : Prop extends Facts₀ where

variable [Facts]
-- ==== Proof.KHost.lean ====
/-
  The host side of the kernel program between its three regions, one stretch at a time, over ANY contents `V` of the
  buffers when the stretch is entered (so that no stretch's result ever mentions an earlier one's text).

  The edge list `e` is a [2, 600000] array of node numbers; `ends r e` is its row `r` followed by the self loops
  0, 1, …, 49999: 650000 endpoints. `wrap s` adds 50000 to the negative entries of `s` (a node counted from the end).
  `take h s` gathers the rows `wrap s` of the matrix `h`, and replaces a row whose wrapped number is outside
  0 … 49999 by a row of one fixed word; `segSum d u` adds row `k` of `u` into row `d k` of a zero matrix.
-/
import proofs.«403919_j39032662786372_1_alg».proof.Proof.Gen.KernelIdeal.Frame

noncomputable section

namespace Cert.KernelIdeal.Stretch

open Cert.KernelIdeal Cert.KernelIdeal.Gen Idealize.ShloMosaic Idealize.ShloMosaic.TcCoe Idealize.SL.Sem Idealize.ShloMosaic.StableHlo

variable {F : FTy → Type} [FloatOps F]

/-- Row 0 of the edge list followed by the self loops: the 650000 source nodes. -/
def ends0 (e : IVec S2x600000 32) : IVec S650000 32 :=
  concatenate S650000 0 [⟨S600000, shapeCast S600000 (extractStridedSlice S1x600000 ![0, 0] e slices_S2x600000_S1x600000_0_0) shapeCasts_S1x600000_S600000⟩,
    ⟨S50000, iotaInDim S50000 32 0⟩] concatenates_S600000_S50000_S650000_d0

/-- Row 1 of the edge list followed by the self loops: the 650000 destination nodes. -/
def ends1 (e : IVec S2x600000 32) : IVec S650000 32 :=
  concatenate S650000 0 [⟨S600000, shapeCast S600000 (extractStridedSlice S1x600000 ![1, 0] e slices_S2x600000_S1x600000_1_0) shapeCasts_S1x600000_S600000⟩,
    ⟨S50000, iotaInDim S50000 32 0⟩] concatenates_S600000_S50000_S650000_d0

/-- A negative node number counts from the end: 50000 is added to it. -/
def wrap (s : IVec S650000 32) : IVec S650000 32 :=
  select (cmpi .slt s (broadcastInDim S650000 ![] bcast_S_S650000 (constantI S_ 32 0#32)))
    (addi s (broadcastInDim S650000 ![] bcast_S_S650000 (constantI S_ 32 50000#32))) s

/-- The wrapped node numbers as a column. -/
def col (s : IVec S650000 32) : IVec S650000x1 32 :=
  broadcastInDim S650000x1 ![0] bcast_S650000_S650000x1_0 (wrap s)

/-- Which wrapped node numbers lie in 0 … 49999. -/
def ok (s : IVec S650000 32) : IVec S650000 1 :=
  Host.reduce IntOp.andi
    (andi (cmpi .sge (col s) (broadcastInDim S650000x1 ![] bcast_S_S650000x1 (constantI S_ 32 0#32)))
          (cmpi .sle (col s) (broadcastInDim S650000x1 ![0, 1] bcast_S1x1_S650000x1_0_1 (broadcastInDim S1x1 ![1] bcast_S1_S1x1_1 (constantI S1 32 49999#32)))))
    (constantI S_ 1 1#1) reducesTo_S650000x1_S650000_d1 h_S_

/-- The rows `wrap s` of `h`, a row outside the matrix replaced by a row of the word 0x7FC00000. -/
def take (h : FVec F S50000x128 .f32) (s : IVec S650000 32) : FVec F S650000x128 .f32 :=
  select (broadcastInDim S650000x128 ![0] bcast_S650000_S650000x128_0 (ok s))
    (Host.gather gather_S50000x128_S650000x1_S650000x128_1_0_n_n_0_1_1128 h (col s))
    (broadcastInDim S650000x128 ![] bcast_S_S650000x128 (constant S_ .f32 0x7FC00000#32))

/-- Row `k` of `u` added into row `d k` of a zero matrix. -/
def segSum (d : IVec S650000 32) (u : FVec F S650000x128 .f32) : FVec F S50000x128 .f32 :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 d) u

variable (V : Valuation τ sig (Elt F))

/-! ## The first stretch: the endpoint lists and the two bias rows -/

theorem s0_v3 : after hostOps0 V (Proc.devRef .tc main_v3) = ends0 (V (Proc.devRef .tc main_arg1)) := by
  after_results_simp <;> rfl
theorem s0_v6 : after hostOps0 V (Proc.devRef .tc main_v6) = ends1 (V (Proc.devRef .tc main_arg1)) := by
  after_results_simp <;> rfl
theorem s0_v7 : after hostOps0 V (Proc.devRef .tc main_v7) = shapeCast S1x128 (V (Proc.devRef .tc main_arg3)) shapeCasts_S128_S1x128 := by
  after_results_simp <;> rfl
theorem s0_v8 : after hostOps0 V (Proc.devRef .tc main_v8) = shapeCast S1x128 (V (Proc.devRef .tc main_arg5)) shapeCasts_S128_S1x128 := by
  after_results_simp <;> rfl
theorem s0_arg0 : after hostOps0 V (Proc.devRef .tc main_arg0) = V (Proc.devRef .tc main_arg0) := by after_results_simp
theorem s0_arg2 : after hostOps0 V (Proc.devRef .tc main_arg2) = V (Proc.devRef .tc main_arg2) := by after_results_simp
theorem s0_arg3 : after hostOps0 V (Proc.devRef .tc main_arg3) = V (Proc.devRef .tc main_arg3) := by after_results_simp
theorem s0_arg4 : after hostOps0 V (Proc.devRef .tc main_arg4) = V (Proc.devRef .tc main_arg4) := by after_results_simp
theorem s0_arg5 : after hostOps0 V (Proc.devRef .tc main_arg5) = V (Proc.devRef .tc main_arg5) := by after_results_simp

/-! ## The stretch after region 0: the gathered rows -/

theorem s1_v10 : after hostOps1 V (Proc.devRef .tc main_v10) = take (V (Proc.devRef .tc main_v9)) (V (Proc.devRef .tc main_v3)) := by
  after_results_simp
  simp only [TRef.ofBuf, TRef.toBuf, cast_eq]
  rfl
theorem s1_v3 : after hostOps1 V (Proc.devRef .tc main_v3) = V (Proc.devRef .tc main_v3) := by after_results_simp
theorem s1_v6 : after hostOps1 V (Proc.devRef .tc main_v6) = V (Proc.devRef .tc main_v6) := by after_results_simp
theorem s1_arg2 : after hostOps1 V (Proc.devRef .tc main_arg2) = V (Proc.devRef .tc main_arg2) := by after_results_simp
theorem s1_arg3 : after hostOps1 V (Proc.devRef .tc main_arg3) = V (Proc.devRef .tc main_arg3) := by after_results_simp
theorem s1_arg4 : after hostOps1 V (Proc.devRef .tc main_arg4) = V (Proc.devRef .tc main_arg4) := by after_results_simp
theorem s1_arg5 : after hostOps1 V (Proc.devRef .tc main_arg5) = V (Proc.devRef .tc main_arg5) := by after_results_simp

/-! ## The stretch before region 1: the segment sum and the two bias rows -/

theorem s11_v13 : after hostOps1_1 V (Proc.devRef .tc main_v13) = segSum (V (Proc.devRef .tc main_v6)) (V (Proc.devRef .tc main_v10)) := by
  after_results_simp <;> rfl
theorem s11_v14 : after hostOps1_1 V (Proc.devRef .tc main_v14) = shapeCast S1x128 (V (Proc.devRef .tc main_arg3)) shapeCasts_S128_S1x128 := by
  after_results_simp <;> rfl
theorem s11_v15 : after hostOps1_1 V (Proc.devRef .tc main_v15) = shapeCast S1x128 (V (Proc.devRef .tc main_arg5)) shapeCasts_S128_S1x128 := by
  after_results_simp <;> rfl
theorem s11_v3 : after hostOps1_1 V (Proc.devRef .tc main_v3) = V (Proc.devRef .tc main_v3) := by after_results_simp
theorem s11_v6 : after hostOps1_1 V (Proc.devRef .tc main_v6) = V (Proc.devRef .tc main_v6) := by after_results_simp
theorem s11_arg2 : after hostOps1_1 V (Proc.devRef .tc main_arg2) = V (Proc.devRef .tc main_arg2) := by after_results_simp
theorem s11_arg4 : after hostOps1_1 V (Proc.devRef .tc main_arg4) = V (Proc.devRef .tc main_arg4) := by after_results_simp

/-! ## The stretch after region 1: the gathered rows -/

theorem s2_v17 : after hostOps2 V (Proc.devRef .tc main_v17) = take (V (Proc.devRef .tc main_v16)) (V (Proc.devRef .tc main_v3)) := by
  after_results_simp
  simp only [TRef.ofBuf, TRef.toBuf, cast_eq]
  rfl
theorem s2_v6 : after hostOps2 V (Proc.devRef .tc main_v6) = V (Proc.devRef .tc main_v6) := by after_results_simp

/-! ## The stretch before region 2: the segment sum -/

theorem s21_v20 : after hostOps2_1 V (Proc.devRef .tc main_v20) = segSum (V (Proc.devRef .tc main_v6)) (V (Proc.devRef .tc main_v17)) := by
  after_results_simp <;> rfl

end Cert.KernelIdeal.Stretch

end
-- ==== Proof.KTake.lean ====
/-
  When every source node number, wrapped, lies in 0 … 49999, the guarded gather `take` is the plain gather: its mask is
  all ones. And the source list `ends0 e` has its entries in -50000 … 49999 as soon as row 0 of the edge list has: the
  appended self loops are 0 … 49999 themselves. A number in -50000 … 49999, wrapped, is in 0 … 49999: a negative one
  gains 50000 without overflow.
-/
import proofs.«403919_j39032662786372_1_alg».proof.Proof.KHost
import Idealize.ShloMosaic.Lib.ReduceAll
import Idealize.ShloMosaic.Lib.Pipeline.Value
import Idealize.ShloMosaic.Lib.ValueIdx
import Idealize.ShloMosaic.Lib.StableHlo.Predicate

noncomputable section

namespace Cert.KernelIdeal.Stretch

open Cert.KernelIdeal Cert.KernelIdeal.Gen Idealize.ShloMosaic Idealize.ShloMosaic.ValueIdx

variable {F : FTy → Type} [FloatOps F]

/-! ## An `and`-reduction of ones -/

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    have e : IntOp.andi (1#1) (f a) = 1#1 := by rw [h a (List.mem_cons_self ..)]; decide
    rw [List.foldl_cons, e]
    exact foldl_andi_ones f l (fun n hn => h n (List.mem_cons_of_mem _ hn))

/-- A reduce by `and` from 1 over an array of ones is 1 at every result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1) (hx : ∀ i, x i = 1#1) :
    Host.reduce IntOp.andi x init h hu j = 1#1 := by
  rw [Host.reduce_eq_foldl, hinit]
  exact foldl_andi_ones x _ (fun n _ => hx n)

/-! ## The words compared -/

theorem toInt_0 : (0#32 : BitVec 32).toInt = 0 := by decide
theorem toInt_49999 : (49999#32 : BitVec 32).toInt = 49999 := by decide
theorem toInt_50000 : (50000#32 : BitVec 32).toInt = 50000 := by decide

/-- A scalar word broadcast to any shape reads that word everywhere. -/
theorem bcast_const {t : Shape} (h : S_.BroadcastsInDim t (![] : Fin 0 → Fin t.rank)) {w : Nat} (b : BitVec w) (i : t.Idx) :
    broadcastInDim t ![] h (constantI S_ w b) i = b :=
  broadcastInDim_apply _ h (constantI S_ w b) i ix0 (fun a => a.elim0)

/-- The upper bound 49999, a one-element vector laid out as a column of 650000. -/
theorem bcast_49999 (i : S650000x1.Idx) :
    broadcastInDim S650000x1 ![0, 1] bcast_S1x1_S650000x1_0_1 (broadcastInDim S1x1 ![1] bcast_S1_S1x1_1 (constantI S1 32 49999#32)) i = 49999#32 := by
  rw [broadcastInDim_apply _ bcast_S1x1_S650000x1_0_1 _ i (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl]),
    broadcastInDim_apply _ bcast_S1_S1x1_1 _ (ix2 (0 : Fin 1) (0 : Fin 1)) (ix1 (0 : Fin 1)) (fun a => match a with
      | ⟨0, _⟩ => by show (0 : Nat) = if (1 : Nat) = 1 then 0 else _; rw [if_pos rfl])]
  rfl

/-- The column of wrapped node numbers at row `i 0` is the wrapped number there. -/
theorem col_apply (s : IVec S650000 32) (i : S650000x1.Idx) : col s i = wrap s (ix1 (i 0) : S650000.Idx) := by
  unfold col
  exact broadcastInDim_apply _ bcast_S650000_S650000x1_0 (wrap s) i (ix1 (i 0) : S650000.Idx) (fun a => match a with
    | ⟨0, _⟩ => by show (i 0).val = if (650000 : Nat) = 1 then 0 else (i 0).val; rw [if_neg (by decide)])

/-- A wrapped node number: the number itself, or the number plus 50000 when it is negative. -/
theorem wrap_apply (s : IVec S650000 32) (k : S650000.Idx) :
    wrap s k = Scalar.select (IntOp.cmpi .slt (s k) 0#32) (IntOp.addi (s k) 50000#32) (s k) := by
  unfold wrap
  show Scalar.select (IntOp.cmpi .slt (s k) (broadcastInDim S650000 ![] bcast_S_S650000 (constantI S_ 32 0#32) k))
      (IntOp.addi (s k) (broadcastInDim S650000 ![] bcast_S_S650000 (constantI S_ 32 50000#32) k)) (s k) = _
  rw [bcast_const, bcast_const]

/-- A number in -50000 … 49999, wrapped, is in 0 … 49999. -/
theorem wrap_range (s : IVec S650000 32) (k : S650000.Idx) (h : -50000 ≤ (s k).toInt ∧ (s k).toInt < 50000) :
    0 ≤ (wrap s k).toInt ∧ (wrap s k).toInt ≤ 49999 := by
  rw [wrap_apply]
  by_cases hneg : (s k).toInt < 0
  · have hc : IntOp.cmpi .slt (s k) 0#32 = 1#1 := IntOp.cmpi_slt.2 (by rw [toInt_0]; exact hneg)
    rw [hc, select_one]
    show 0 ≤ ((s k) + 50000#32).toInt ∧ ((s k) + 50000#32).toInt ≤ 49999
    have e : ((s k) + 50000#32).toInt = (s k).toInt + 50000 := by
      rw [BitVec.toInt_add, toInt_50000]
      unfold Int.bmod
      dsimp only
      split <;> omega
    rw [e]; omega
  · have hc : ¬ IntOp.cmpi .slt (s k) 0#32 = 1#1 := fun e => hneg (by have := IntOp.cmpi_slt.1 e; rwa [toInt_0] at this)
    rw [eq_zero_of_ne_one hc, select_zero]
    omega

/-! ## The mask is all ones, and the guarded gather is the gather -/

theorem ok_eq_one (s : IVec S650000 32) (hs : ∀ k : S650000.Idx, 0 ≤ (wrap s k).toInt ∧ (wrap s k).toInt ≤ 49999) (j : S650000.Idx) :
    ok s j = 1#1 := by
  unfold ok
  refine reduce_andi_ones _ _ _ _ j rfl (fun i => ?_)
  show IntOp.andi (IntOp.cmpi .sge (col s i) (broadcastInDim S650000x1 ![] bcast_S_S650000x1 (constantI S_ 32 0#32) i))
      (IntOp.cmpi .sle (col s i) (broadcastInDim S650000x1 ![0, 1] bcast_S1x1_S650000x1_0_1 (broadcastInDim S1x1 ![1] bcast_S1_S1x1_1 (constantI S1 32 49999#32)) i)) = 1#1
  rw [bcast_const, bcast_49999, col_apply, IntOp.andi_eq_one, IntOp.cmpi_sge, IntOp.cmpi_sle, toInt_0, toInt_49999]
  exact hs _

/-- With every wrapped source number in range, `take` gathers the rows and replaces none. -/
theorem take_eq (h : FVec F S50000x128 .f32) (s : IVec S650000 32)
    (hs : ∀ k : S650000.Idx, 0 ≤ (wrap s k).toInt ∧ (wrap s k).toInt ≤ 49999) :
    take h s = Host.gather gather_S50000x128_S650000x1_S650000x128_1_0_n_n_0_1_1128 h (col s) := by
  funext i
  unfold take
  show Scalar.select (broadcastInDim S650000x128 ![0] bcast_S650000_S650000x128_0 (ok s) i) _ _ = _
  rw [broadcastInDim_apply _ bcast_S650000_S650000x128_0 (ok s) i (ix1 (i 0) : S650000.Idx) (fun a => match a with
      | ⟨0, _⟩ => by show (i 0).val = if (650000 : Nat) = 1 then 0 else (i 0).val; rw [if_neg (by decide)]),
    ok_eq_one s hs]
  exact select_one _ _

/-! ## The source list's range -/

/-- Row 0 of the edge list in -50000 … 49999 puts every entry of the source list there: the appended self loops
    are 0 … 49999. -/
theorem ends0_range (e : IVec S2x600000 32)
    (he : ∀ j : Fin 600000, -50000 ≤ (e (ix2 (0 : Fin 2) j : S2x600000.Idx)).toInt ∧ (e (ix2 (0 : Fin 2) j : S2x600000.Idx)).toInt < 50000)
    (k : S650000.Idx) : -50000 ≤ (ends0 e k).toInt ∧ (ends0 e k).toInt < 50000 := by
  unfold ends0
  have hk0 : (k 0).val < 650000 := (k 0).isLt
  by_cases hk : (k 0).val < 600000
  · rw [concatenate_pair_apply_left 0 _ _ concatenates_S600000_S50000_S650000_d0 k rfl (ix1 (⟨(k 0).val, hk⟩ : Fin 600000) : S600000.Idx)
        (fun b => match b with | ⟨0, _⟩ => rfl),
      shapeCast_apply _ shapeCasts_S1x600000_S600000 _ (ix2 (0 : Fin 1) (⟨(k 0).val, hk⟩ : Fin 600000) : S1x600000.Idx)
        (by rewrite [Shape.rowMajor_val_two, Shape.rowMajor_val_one]; show 0 * 600000 + (k 0).val = (k 0).val; omega),
      extractStridedSlice_apply ![0, 0] e slices_S2x600000_S1x600000_0_0 _ (ix2 (0 : Fin 2) (⟨(k 0).val, hk⟩ : Fin 600000) : S2x600000.Idx)
        (fun a => match a with
          | ⟨0, _⟩ => by show (0 : Nat) = 0 + 0; rfl
          | ⟨1, _⟩ => by show (k 0).val = 0 + (k 0).val; omega)]
    exact he _
  · rw [concatenate_pair_apply_right 0 _ _ concatenates_S600000_S50000_S650000_d0 k rfl rfl
        (ix1 (⟨(k 0).val - 600000, by omega⟩ : Fin 50000) : S50000.Idx)
        (fun b hb => match b with | ⟨0, _⟩ => absurd rfl hb)
        (by show ((k 0).val - 600000) + 600000 = (k 0).val; omega)]
    show -50000 ≤ (BitVec.ofNat 32 ((k 0).val - 600000)).toInt ∧ (BitVec.ofNat 32 ((k 0).val - 600000)).toInt < 50000
    rw [StableHlo.Predicate.toInt_ofNat_small _ (by omega)]
    omega

end Cert.KernelIdeal.Stretch

end
-- ==== Proof.Spec.lean ====
/-
  What the two programs compute, stated once over the extended reals and over no program's text.

  A node-feature matrix has 50000 rows of 128 entries. `lin` is two stacked affine layers applied to every row,
  `(x · w1ᵀ + b1) · w2ᵀ + b2`, each weight matrix stored output-major (entry `(o, k)` multiplies input `k` into output `o`),
  written as the two nested sums with nothing distributed. `lsm` is the row-wise log-softmax in its shifted form:
  every entry minus its row's maximum, minus the logarithm of the row's sum of exponentials of the shifted entries.
  The maximum is the fold of `max` from `⊥` (the extended reals' least element, what an f32 `-inf` denotes).
-/
import Idealize.ShloMosaic.PureOps.Ideal
import Idealize.ShloMosaic.Lib.ValueIdx

noncomputable section

namespace Cert.Spec

open Idealize.ShloMosaic Idealize.ShloMosaic.ValueIdx

/-- The node-feature matrices. -/
abbrev SN : Shape := ⟨2, ![50000, 128]⟩
/-- The weight matrices. -/
abbrev SW : Shape := ⟨2, ![128, 128]⟩

/-- Two stacked affine layers, row by row: entry `(r, j)` is `∑ k2, (∑ k1, x[r,k1]·w1[k2,k1] + b1[k2]) · w2[j,k2] + b2[j]`. -/
def lin (x : FVec Ideal SN .f32) (w1 : FVec Ideal SW .f32) (b1 : Fin 128 → EReal) (w2 : FVec Ideal SW .f32) (b2 : Fin 128 → EReal) :
    FVec Ideal SN .f32 :=
  fun i => (∑ k2 : Fin 128, ((∑ k1 : Fin 128, x (ix2 (i 0) k1) * w1 (ix2 k2 k1)) + b1 k2) * w2 (ix2 (i 1) k2)) + b2 (i 1)

/-- The maximum of row `r`: the fold of `max` over the row's 128 entries, from `⊥`. -/
def rowMax (h : FVec Ideal SN .f32) (r : Fin 50000) : EReal :=
  (Finset.univ : Finset (Fin 128)).fold max (⊥ : EReal) (fun k => h (ix2 r k))

/-- The row-wise log-softmax, shifted by the row's maximum. -/
def lsm (h : FVec Ideal SN .f32) : FVec Ideal SN .f32 :=
  fun i => (h i - rowMax h (i 0)) - Ideal.log (∑ k : Fin 128, Ideal.exp (h (ix2 (i 0) k) - rowMax h (i 0)))

end Cert.Spec

end
-- ==== Proof.KLin0.lean ====
/-
  The value of a linear region: two stacked affine layers on a grid of 25 row blocks.

  Point `t` of the grid stages rows `2000 t … 2000 t + 1999` of the node-feature array together with the two whole weight
  matrices and the two bias rows, and writes back, for every row of its block, `(x · w1ᵀ + b1) · w2ᵀ + b2`. Read at an
  entry, a product that contracts both operands' second axes is `∑ k, l[p,k] · r[q,k]`; the format changes are the
  identity on the extended reals; a bias row broadcast over the rows reads its entry `(0, q)`. So what point `t` writes
  back is block `t` of `Cert.Spec.lin` of the arrays as the region finds them, the 25 blocks cover the array, and the
  output array ends holding `Cert.Spec.lin` of them: the same nested sums on both sides, nothing distributed.
-/
import proofs.«403919_j39032662786372_1_alg».proof.Proof.Gen.KernelIdeal.Frame
import proofs.«403919_j39032662786372_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Lin0

open Cert.KernelIdeal Cert.KernelIdeal.Gen Idealize.ShloMosaic Idealize.ShloMosaic.ValueIdx
open Idealize.ShloMosaic.TcCoe Idealize.SL.Sem
open Idealize.ShloMosaic.Pipeline (Dat)

/-! ## The matrix product read at an index -/

/-- The left operand's row coordinate is the output's row. -/
theorem lhs_mm_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's column coordinate is the contraction position. -/
theorem lhs_mm_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The right operand's row coordinate is the output's column. -/
theorem rhs_mm_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The right operand's column coordinate is the contraction position. -/
theorem rhs_mm_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- A product with a zero accumulator, contracting both operands' second axes: entry `(p, q)` is `∑ k, l[p,k] · r[q,k]`. -/
theorem mm_apply {φ₁ φ₂ : FTy} (l : FVec Ideal S2000x128 φ₁) (r : FVec Ideal S128x128 φ₂) (p : Fin 2000) (q : Fin 128) :
    (matmul dot_S2000x128_S128x128_S2000x128_1_1_0_0_n_n none l r (constant (F := Ideal) S2000x128 .f32 0x00000000#32) : FVec Ideal S2000x128 .f32) (ix2 p q)
      = ∑ k : Fin 128, l (ix2 p k) * r (ix2 q k) := by
  show FloatOps.matmul dot_S2000x128_S128x128_S2000x128_1_1_0_0_n_n none l r (constant S2000x128 .f32 0x00000000#32) (ix2 p q) = _
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_mm_0 _ _
    | ⟨1, _⟩ => exact (rhs_mm_1 _ _).trans hk)
  rw [el, er]

/-! ## The body's arithmetic at an entry -/

/-- Entry `(p, q)` of what the body stores: the two affine layers of row `p` of the block, as nested sums. -/
theorem pay_apply (x0 : Vec Ideal S2000x128 .f32) (x1 x3 : Vec Ideal S128x128 .f32) (x2 x4 : Vec Ideal S1x128 .f32) (p : Fin 2000) (q : Fin 128) :
    (k0_pay1 (F := Ideal) x0 x1 x2 x3 x4) (ix2 p q)
      = (∑ k2 : Fin 128, ((∑ k1 : Fin 128, x0 (ix2 p k1) * x1 (ix2 k2 k1)) + x2 (ix2 (0 : Fin 1) k2)) * x3 (ix2 q k2)) + x4 (ix2 (0 : Fin 1) q) := by
  unfold k0_pay1
  simp only [addf_apply, truncf_apply, mm_apply, broadcastTo_1b_ab_apply, shapeCast_self]

/-! ## From blocks to the array -/

section Array
variable (V : (c : Dev nD) → (b : Ref sig .tc) → Buf (Elt Ideal) ((c : Thread nD τ).loc b))

theorem hz : (![0, 0] : Fin 2 → Nat) = fun _ => 0 := funext fun a => by fin_cases a <;> rfl

/-- The two layers of every row of the node-feature array, from the arrays as the region finds them. -/
abbrev G (c : Dev nD) : FVec Ideal Cert.Spec.SN .f32 :=
  Cert.Spec.lin (V c main_arg0) (V c main_arg2) (fun q => V c main_v7 (ix2 0 q)) (V c main_arg4) (fun q => V c main_v8 (ix2 0 q))

/-- The block index maps over the grid: the rows' windows (input 0, output 5) sit at block `t` of axis 0, every other
    window at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  have key : ∀ j : S2000x128.Idx, k0_pay1 (F := Ideal) (iblk0 V c 0 t) (iblk0 V c 1 t) (iblk0 V c 2 t) (iblk0 V c 3 t) (iblk0 V c 4 t) j
      = G V c (((cfg0.win 5).blk t).view.emb j) := by
    intro j
    obtain ⟨p, q, rfl⟩ : ∃ (p : Fin 2000) (q : Fin 128), j = ix2 p q := ⟨j 0, j 1, eq_ix2 j⟩
    rw [pay_apply]
    have hp : p.val < 2000 := p.isLt
    have hq : q.val < 128 := q.isLt
    -- the rows' block: row `p` of block `t` is the array's row at the output's coordinate
    have h0 : ∀ k : Fin 128, iblk0 V c 0 t (ix2 p k) = V c main_arg0 (ix2 ((((cfg0.win 5).blk t).view.emb (ix2 p q)) 0) k) := fun k => by
      show V c main_arg0 (((cfg0.win 0).blk t).view.emb (ix2 p k)) = _
      refine congrArg (V c main_arg0) (funext fun a => Fin.ext ?_)
      match a with
      | ⟨0, _⟩ => show win0_0.index t (0 : Fin 2) * 2000 + 1 * p.val = win0_5.index t (0 : Fin 2) * 2000 + 1 * p.val; omega
      | ⟨1, _⟩ => show win0_0.index t (1 : Fin 2) * 128 + 1 * k.val = k.val; omega
    -- the weights' and the biases' blocks are their whole arrays
    have h1 : ∀ a b : Fin 128, iblk0 V c 1 t (ix2 a b) = V c main_arg2 (ix2 a b) := fun a b => by
      show V c main_arg2 (((cfg0.win 1).blk t).view.emb (ix2 a b)) = _
      refine congrArg (V c main_arg2) (funext fun d => Fin.ext ?_)
      match d with
      | ⟨0, _⟩ => show win0_1.index t (0 : Fin 2) * 128 + 1 * a.val = a.val; omega
      | ⟨1, _⟩ => show win0_1.index t (1 : Fin 2) * 128 + 1 * b.val = b.val; omega
    have h2 : ∀ b : Fin 128, iblk0 V c 2 t (ix2 (0 : Fin 1) b) = V c main_v7 (ix2 (0 : Fin 1) b) := fun b => by
      show V c main_v7 (((cfg0.win 2).blk t).view.emb (ix2 (0 : Fin 1) b)) = _
      refine congrArg (V c main_v7) (funext fun d => Fin.ext ?_)
      match d with
      | ⟨0, _⟩ => show win0_2.index t (0 : Fin 2) * 1 + 1 * 0 = 0; omega
      | ⟨1, _⟩ => show win0_2.index t (1 : Fin 2) * 128 + 1 * b.val = b.val; omega
    have h3 : ∀ k : Fin 128, iblk0 V c 3 t (ix2 q k) = V c main_arg4 (ix2 ((((cfg0.win 5).blk t).view.emb (ix2 p q)) 1) k) := fun k => by
      show V c main_arg4 (((cfg0.win 3).blk t).view.emb (ix2 q k)) = _
      refine congrArg (V c main_arg4) (funext fun d => Fin.ext ?_)
      match d with
      | ⟨0, _⟩ => show win0_3.index t (0 : Fin 2) * 128 + 1 * q.val = win0_5.index t (1 : Fin 2) * 128 + 1 * q.val; omega
      | ⟨1, _⟩ => show win0_3.index t (1 : Fin 2) * 128 + 1 * k.val = k.val; omega
    have h4 : iblk0 V c 4 t (ix2 (0 : Fin 1) q) = V c main_v8 (ix2 (0 : Fin 1) ((((cfg0.win 5).blk t).view.emb (ix2 p q)) 1)) := by
      show V c main_v8 (((cfg0.win 4).blk t).view.emb (ix2 (0 : Fin 1) q)) = _
      refine congrArg (V c main_v8) (funext fun d => Fin.ext ?_)
      match d with
      | ⟨0, _⟩ => show win0_4.index t (0 : Fin 2) * 1 + 1 * 0 = 0; omega
      | ⟨1, _⟩ => show win0_4.index t (1 : Fin 2) * 128 + 1 * q.val = win0_5.index t (1 : Fin 2) * 128 + 1 * q.val; omega
    simp only [h0, h1, h2, h3, h4]
    rfl
  funext j
  exact key j

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v9).slice (win0_5.rect t)).set ↔ _
  rw [View.set_slice_whole, Rect.mem_set_unit]
  exact Iff.rfl

/-- Every row `r` is in the block of the point `r / 2000`, which writes back. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; omega
  obtain ⟨-, -, -, -, -, -, -, -, -, -, e50, e51⟩ := idx_facts ⟨(i 0).val / 2000, ht⟩
  refine ⟨⟨(i 0).val / 2000, ht⟩, flush0_5 _, ?_⟩
  rw [mem_blk]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, ht⟩ (1 : Fin 2) * 128 ≤ (i 1).val ∧ (i 1).val < win0_5.index ⟨(i 0).val / 2000, ht⟩ (1 : Fin 2) * 128 + 128
    rw [e51]; omega

/-- The output array after the region: both layers of every row. -/
theorem final (c : Dev nD) :
    (dat0 (F := Ideal) V c).arrAt 5 cfg0.N
      = Cert.Spec.lin (V c main_arg0) (V c main_arg2) (fun q => V c main_v7 (ix2 0 q)) (V c main_arg4) (fun q => V c main_v8 (ix2 0 q)) :=
  (dat0 V c).arrAt_eq_of_cover 5 (G V c) (fun t _ => flushed_eq V c t) cover

end Array

end Cert.KernelIdeal.Lin0

end
-- ==== Proof.KLin1.lean ====
/-
  The value of a linear region: two stacked affine layers on a grid of 25 row blocks.

  Point `t` of the grid stages rows `2000 t … 2000 t + 1999` of the node-feature array together with the two whole weight
  matrices and the two bias rows, and writes back, for every row of its block, `(x · w1ᵀ + b1) · w2ᵀ + b2`. Read at an
  entry, a product that contracts both operands' second axes is `∑ k, l[p,k] · r[q,k]`; the format changes are the
  identity on the extended reals; a bias row broadcast over the rows reads its entry `(0, q)`. So what point `t` writes
  back is block `t` of `Cert.Spec.lin` of the arrays as the region finds them, the 25 blocks cover the array, and the
  output array ends holding `Cert.Spec.lin` of them: the same nested sums on both sides, nothing distributed.
-/
import proofs.«403919_j39032662786372_1_alg».proof.Proof.Gen.KernelIdeal.Frame
import proofs.«403919_j39032662786372_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Lin1

open Cert.KernelIdeal Cert.KernelIdeal.Gen Idealize.ShloMosaic Idealize.ShloMosaic.ValueIdx
open Idealize.ShloMosaic.TcCoe Idealize.SL.Sem
open Idealize.ShloMosaic.Pipeline (Dat)

/-! ## The matrix product read at an index -/

/-- The left operand's row coordinate is the output's row. -/
theorem lhs_mm_0 (i : S2000x128.Idx) (q : dot_S2000x128_S128x128_S2000x128_1_1_0_0_n_n.contr.Idx) :
    (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
/-- The left operand's column coordinate is the contraction position. -/
theorem lhs_mm_1 (i : S2000x128.Idx) (q : dot_S2000x128_S128x128_S2000x128_1_1_0_0_n_n.contr.Idx) :
    (dot_S2000x128_S128x128_S2000x128_1_1_0_0_n_n.lhsIdx i q 1).val = (q ⟨0, by decide⟩).val :=
  dot_S2000x128_S128x128_S2000x128_1_1_0_0_n_n.lhsIdx_val_of_single rfl i q
/-- The right operand's row coordinate is the output's column. -/
theorem rhs_mm_0 (i : S2000x128.Idx) (q : dot_S2000x128_S128x128_S2000x128_1_1_0_0_n_n.contr.Idx) :
    (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl
/-- The right operand's column coordinate is the contraction position. -/
theorem rhs_mm_1 (i : S2000x128.Idx) (q : dot_S2000x128_S128x128_S2000x128_1_1_0_0_n_n.contr.Idx) :
    (dot_S2000x128_S128x128_S2000x128_1_1_0_0_n_n.rhsIdx i q 1).val = (q ⟨0, by decide⟩).val :=
  dot_S2000x128_S128x128_S2000x128_1_1_0_0_n_n.rhsIdx_val_of_single rfl i q

/-- A product with a zero accumulator, contracting both operands' second axes: entry `(p, q)` is `∑ k, l[p,k] · r[q,k]`. -/
theorem mm_apply {φ₁ φ₂ : FTy} (l : FVec Ideal S2000x128 φ₁) (r : FVec Ideal S128x128 φ₂) (p : Fin 2000) (q : Fin 128) :
    (matmul dot_S2000x128_S128x128_S2000x128_1_1_0_0_n_n none l r (constant (F := Ideal) S2000x128 .f32 0x00000000#32) : FVec Ideal S2000x128 .f32) (ix2 p q)
      = ∑ k : Fin 128, l (ix2 p k) * r (ix2 q k) := by
  show FloatOps.matmul dot_S2000x128_S128x128_S2000x128_1_1_0_0_n_n none l r (constant S2000x128 .f32 0x00000000#32) (ix2 p q) = _
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun a => Fin.ext (by
    match a with
    | ⟨0, _⟩ => exact rhs_mm_0 _ _
    | ⟨1, _⟩ => exact (rhs_mm_1 _ _).trans hk)
  rw [el, er]

/-! ## The body's arithmetic at an entry -/

/-- Entry `(p, q)` of what the body stores: the two affine layers of row `p` of the block, as nested sums. -/
theorem pay_apply (x0 : Vec Ideal S2000x128 .f32) (x1 x3 : Vec Ideal S128x128 .f32) (x2 x4 : Vec Ideal S1x128 .f32) (p : Fin 2000) (q : Fin 128) :
    (k1_pay1 (F := Ideal) x0 x1 x2 x3 x4) (ix2 p q)
      = (∑ k2 : Fin 128, ((∑ k1 : Fin 128, x0 (ix2 p k1) * x1 (ix2 k2 k1)) + x2 (ix2 (0 : Fin 1) k2)) * x3 (ix2 q k2)) + x4 (ix2 (0 : Fin 1) q) := by
  unfold k1_pay1
  simp only [addf_apply, truncf_apply, mm_apply, broadcastTo_1b_ab_apply, shapeCast_self]

/-! ## From blocks to the array -/

section Array
variable (V : (c : Dev nD) → (b : Ref sig .tc) → Buf (Elt Ideal) ((c : Thread nD τ).loc b))

theorem hz : (![0, 0] : Fin 2 → Nat) = fun _ => 0 := funext fun a => by fin_cases a <;> rfl

/-- The two layers of every row of the node-feature array, from the arrays as the region finds them. -/
abbrev G (c : Dev nD) : FVec Ideal Cert.Spec.SN .f32 :=
  Cert.Spec.lin (V c main_v13) (V c main_arg2) (fun q => V c main_v14 (ix2 0 q)) (V c main_arg4) (fun q => V c main_v15 (ix2 0 q))

/-- The block index maps over the grid: the rows' windows (input 0, output 5) sit at block `t` of axis 0, every other
    window at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  have key : ∀ j : S2000x128.Idx, k1_pay1 (F := Ideal) (iblk1 V c 0 t) (iblk1 V c 1 t) (iblk1 V c 2 t) (iblk1 V c 3 t) (iblk1 V c 4 t) j
      = G V c (((cfg1.win 5).blk t).view.emb j) := by
    intro j
    obtain ⟨p, q, rfl⟩ : ∃ (p : Fin 2000) (q : Fin 128), j = ix2 p q := ⟨j 0, j 1, eq_ix2 j⟩
    rw [pay_apply]
    have hp : p.val < 2000 := p.isLt
    have hq : q.val < 128 := q.isLt
    -- the rows' block: row `p` of block `t` is the array's row at the output's coordinate
    have h0 : ∀ k : Fin 128, iblk1 V c 0 t (ix2 p k) = V c main_v13 (ix2 ((((cfg1.win 5).blk t).view.emb (ix2 p q)) 0) k) := fun k => by
      show V c main_v13 (((cfg1.win 0).blk t).view.emb (ix2 p k)) = _
      refine congrArg (V c main_v13) (funext fun a => Fin.ext ?_)
      match a with
      | ⟨0, _⟩ => show win1_0.index t (0 : Fin 2) * 2000 + 1 * p.val = win1_5.index t (0 : Fin 2) * 2000 + 1 * p.val; omega
      | ⟨1, _⟩ => show win1_0.index t (1 : Fin 2) * 128 + 1 * k.val = k.val; omega
    -- the weights' and the biases' blocks are their whole arrays
    have h1 : ∀ a b : Fin 128, iblk1 V c 1 t (ix2 a b) = V c main_arg2 (ix2 a b) := fun a b => by
      show V c main_arg2 (((cfg1.win 1).blk t).view.emb (ix2 a b)) = _
      refine congrArg (V c main_arg2) (funext fun d => Fin.ext ?_)
      match d with
      | ⟨0, _⟩ => show win1_1.index t (0 : Fin 2) * 128 + 1 * a.val = a.val; omega
      | ⟨1, _⟩ => show win1_1.index t (1 : Fin 2) * 128 + 1 * b.val = b.val; omega
    have h2 : ∀ b : Fin 128, iblk1 V c 2 t (ix2 (0 : Fin 1) b) = V c main_v14 (ix2 (0 : Fin 1) b) := fun b => by
      show V c main_v14 (((cfg1.win 2).blk t).view.emb (ix2 (0 : Fin 1) b)) = _
      refine congrArg (V c main_v14) (funext fun d => Fin.ext ?_)
      match d with
      | ⟨0, _⟩ => show win1_2.index t (0 : Fin 2) * 1 + 1 * 0 = 0; omega
      | ⟨1, _⟩ => show win1_2.index t (1 : Fin 2) * 128 + 1 * b.val = b.val; omega
    have h3 : ∀ k : Fin 128, iblk1 V c 3 t (ix2 q k) = V c main_arg4 (ix2 ((((cfg1.win 5).blk t).view.emb (ix2 p q)) 1) k) := fun k => by
      show V c main_arg4 (((cfg1.win 3).blk t).view.emb (ix2 q k)) = _
      refine congrArg (V c main_arg4) (funext fun d => Fin.ext ?_)
      match d with
      | ⟨0, _⟩ => show win1_3.index t (0 : Fin 2) * 128 + 1 * q.val = win1_5.index t (1 : Fin 2) * 128 + 1 * q.val; omega
      | ⟨1, _⟩ => show win1_3.index t (1 : Fin 2) * 128 + 1 * k.val = k.val; omega
    have h4 : iblk1 V c 4 t (ix2 (0 : Fin 1) q) = V c main_v15 (ix2 (0 : Fin 1) ((((cfg1.win 5).blk t).view.emb (ix2 p q)) 1)) := by
      show V c main_v15 (((cfg1.win 4).blk t).view.emb (ix2 (0 : Fin 1) q)) = _
      refine congrArg (V c main_v15) (funext fun d => Fin.ext ?_)
      match d with
      | ⟨0, _⟩ => show win1_4.index t (0 : Fin 2) * 1 + 1 * 0 = 0; omega
      | ⟨1, _⟩ => show win1_4.index t (1 : Fin 2) * 128 + 1 * q.val = win1_5.index t (1 : Fin 2) * 128 + 1 * q.val; omega
    simp only [h0, h1, h2, h3, h4]
    rfl
  funext j
  exact key j

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v16).slice (win1_5.rect t)).set ↔ _
  rw [View.set_slice_whole, Rect.mem_set_unit]
  exact Iff.rfl

/-- Every row `r` is in the block of the point `r / 2000`, which writes back. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; omega
  obtain ⟨-, -, -, -, -, -, -, -, -, -, e50, e51⟩ := idx_facts ⟨(i 0).val / 2000, ht⟩
  refine ⟨⟨(i 0).val / 2000, ht⟩, flush1_5 _, ?_⟩
  rw [mem_blk]
  intro a
  match a with
  | ⟨0, _⟩ =>
    show win1_5.index ⟨(i 0).val / 2000, ht⟩ (0 : Fin 2) * 2000 ≤ (i 0).val ∧ (i 0).val < win1_5.index ⟨(i 0).val / 2000, ht⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, ht⟩ (1 : Fin 2) * 128 ≤ (i 1).val ∧ (i 1).val < win1_5.index ⟨(i 0).val / 2000, ht⟩ (1 : Fin 2) * 128 + 128
    rw [e51]; omega

/-- The output array after the region: both layers of every row. -/
theorem final (c : Dev nD) :
    (dat1 (F := Ideal) V c).arrAt 5 cfg1.N
      = Cert.Spec.lin (V c main_v13) (V c main_arg2) (fun q => V c main_v14 (ix2 0 q)) (V c main_arg4) (fun q => V c main_v15 (ix2 0 q)) :=
  (dat1 V c).arrAt_eq_of_cover 5 (G V c) (fun t _ => flushed_eq V c t) cover

end Array

end Cert.KernelIdeal.Lin1

end
-- ==== Proof.KLsm.lean ====
/-
  The value of the log-softmax region.

  The region walks a [50000, 128] array in 25 blocks of 2000 rows. On one block the body takes each row's maximum
  (a fold of max from the f32 word of -inf, which is ⊥ over the extended reals), keeps it as a column, broadcasts
  it back over the row and subtracts it; exponentiates; sums each row; takes the logarithm of the sums, again kept
  as a column and broadcast; and subtracts that from the shifted entries. Read at the entry (p, q) of a block this is
  (x[p,q] - max_k x[p,k]) - log (∑ k, exp (x[p,k] - max_k x[p,k])): a function of row p of the block only.

  Row p of the block of grid point t is row t · 2000 + p of the array, so the block's row maximum and row sum are the
  array's at that row, and what point t writes back is block t of the row-wise log-softmax of the whole array. The
  25 blocks cover every row (row r lies in block r / 2000), so the output array is that log-softmax.
-/
import proofs.«403919_j39032662786372_1_alg».proof.Proof.Gen.KernelIdeal.Frame
import proofs.«403919_j39032662786372_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Lsm

open Cert.KernelIdeal Cert.KernelIdeal.Gen Idealize.ShloMosaic Idealize.ShloMosaic.ValueIdx Idealize.ShloMosaic.TcCoe

/-! ## Two keepdims layout operations read at an index -/

/-- An [a] array cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload at an index -/

/-- The maximum of row p of a block: the fold of max from ⊥ over the row's 128 entries. -/
def blkMax (x0 : FVec Ideal S2000x128 .f32) (p : Fin 2000) : EReal :=
  (Finset.univ : Finset (Fin 128)).fold max (⊥ : EReal) (fun k => x0 (ix2 p k))

/-- The index the lane reduction inserts coordinate k into, at row p, is (p, k). -/
theorem lift_row (p : Fin 2000) (k : Fin 128) :
    reduces_S2000x128_S2000.lift (ix1 p) k = ix2 p k :=
  funext fun a => Fin.ext (by match a with | ⟨0, _⟩ => rfl | ⟨1, _⟩ => rfl)

theorem ofBits_neg_inf : Ideal.ofBits .f32 0xFF800000#32 = (⊥ : EReal) := by simp [Ideal.ofBits, Ideal.ieee]

theorem rowmax_apply (x : FVec Ideal S2000x128 .f32) (hφ : FKind.Formats .f32)
    (hacc : (0xFF800000#32 : BitVec 32) = 0xFF800000#32) (p : Fin 2000) :
    multiReduction (F := Ideal) .maximumf [1] S2000 x 0xFF800000#32 reduces_S2000x128_S2000 hφ hacc (ix1 p) = blkMax x p := by
  refine (Ideal.multiReduction_maximumf_single x 0xFF800000#32 reduces_S2000x128_S2000 hφ hacc (ix1 p)).trans ?_
  unfold blkMax
  show (Finset.univ : Finset (Fin 128)).fold max (Ideal.ofBits .f32 0xFF800000#32) (fun k => x (reduces_S2000x128_S2000.lift (ix1 p) k)) = _
  rw [ofBits_neg_inf]
  exact congrArg (fun f : Fin 128 → EReal => (Finset.univ : Finset (Fin 128)).fold max (⊥ : EReal) f)
    (funext fun k => congrArg x (lift_row p k))

theorem rowsum_apply (x : FVec Ideal S2000x128 .f32) (hφ : FKind.Formats .f32)
    (hacc : (0x00000000#32 : BitVec 32) = 0x00000000#32) (p : Fin 2000) :
    multiReduction (F := Ideal) .add [1] S2000 x 0x00000000#32 reduces_S2000x128_S2000 hφ hacc (ix1 p) = ∑ k : Fin 128, x (ix2 p k) := by
  refine (Ideal.multiReduction_add_single x 0x00000000#32 reduces_S2000x128_S2000 hφ hacc (ix1 p)).trans ?_
  show ∑ k : Fin 128, x (reduces_S2000x128_S2000.lift (ix1 p) k) = _
  exact Finset.sum_congr rfl fun k _ => congrArg x (lift_row p k)

/-- The row maximum, kept as a column and broadcast back over the row, read at (p, k). -/
theorem bmax_apply (x0 : FVec Ideal S2000x128 .f32) (hφ : FKind.Formats .f32)
    (hacc : (0xFF800000#32 : BitVec 32) = 0xFF800000#32) (p : Fin 2000) (k : Fin 128) :
    broadcastTo S2000x128 (shapeCast S2000x1
        (multiReduction (F := Ideal) .maximumf [1] S2000 x0 0xFF800000#32 reduces_S2000x128_S2000 hφ hacc)
        shapeCasts_S2000_S2000x1) broadcasts_S2000x1_S2000x128 (ix2 p k) = blkMax x0 p :=
  (broadcastTo_a1_ab_apply _ _ p k).trans ((shapeCast_a_a1_apply _ _ p 0).trans (rowmax_apply x0 hφ hacc p))

theorem pay_apply (x0 : FVec Ideal S2000x128 .f32) (p : Fin 2000) (q : Fin 128) :
    k2_pay1 (F := Ideal) x0 (ix2 p q)
      = (x0 (ix2 p q) - blkMax x0 p) - Ideal.log (∑ k : Fin 128, Ideal.exp (x0 (ix2 p k) - blkMax x0 p)) := by
  unfold k2_pay1
  simp only [subf_apply, shapeCast_self]
  rw [bmax_apply, broadcastTo_a1_ab_apply]
  show _ - Ideal.log (shapeCast S2000x1 _ shapeCasts_S2000_S2000x1 (ix2 p (0 : Fin 1))) = _
  rw [shapeCast_a_a1_apply, rowsum_apply]
  refine congrArg (fun z => _ - Ideal.log z) (Finset.sum_congr rfl fun k _ => ?_)
  show Ideal.exp (x0 (ix2 p k) - _) = _
  rw [bmax_apply]

/-! ## From the blocks to the array -/

section Array

variable (V : (c : Dev nD) → (b : Ref sig .tc) → Buf (Elt Ideal) ((c : Thread nD τ).loc b))

theorem hz : (![0, 0] : Fin 2 → Nat) = fun _ => 0 := funext fun a => by fin_cases a <;> rfl

/-- Both windows move down the rows with the grid point and stay on the one block of columns. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

/-- Row p of the block of point t is row t · 2000 + p of the array. -/
def row (t : Fin cfg2.N) (p : Fin 2000) : Fin 50000 :=
  ⟨t.val * 2000 + p.val, by have := t.isLt; have h : cfg2.N = 25 := N_2; have := p.isLt; omega⟩

theorem emb_out (t : Fin cfg2.N) (p : Fin 2000) (q : Fin 128) :
    ((cfg2.win 1).blk t).view.emb (ix2 p q) = ix2 (row t p) q := by
  obtain ⟨e0, e1, e2, e3⟩ := idx_facts t
  funext a; apply Fin.ext
  match a with
  | ⟨0, _⟩ => show win2_1.index t (0 : Fin 2) * 2000 + 1 * p.val = t.val * 2000 + p.val; omega
  | ⟨1, _⟩ => show win2_1.index t (1 : Fin 2) * 128 + 1 * q.val = q.val; omega

theorem emb_in (t : Fin cfg2.N) (p : Fin 2000) (q : Fin 128) :
    ((cfg2.win 0).blk t).view.emb (ix2 p q) = ix2 (row t p) q := by
  obtain ⟨e0, e1, e2, e3⟩ := idx_facts t
  funext a; apply Fin.ext
  match a with
  | ⟨0, _⟩ => show win2_0.index t (0 : Fin 2) * 2000 + 1 * p.val = t.val * 2000 + p.val; omega
  | ⟨1, _⟩ => show win2_0.index t (1 : Fin 2) * 128 + 1 * q.val = q.val; omega

/-- The input block of point t, read at (p, k), is the array at (t · 2000 + p, k). -/
theorem blk_apply (c : Dev nD) (t : Fin cfg2.N) (p : Fin 2000) (k : Fin 128) :
    iblk2 V c 0 t (ix2 p k) = (V c main_v20 : FVec Ideal Cert.Spec.SN .f32) (ix2 (row t p) k) := by
  show V c main_v20 (((cfg2.win 0).blk t).view.emb (ix2 p k)) = _
  rw [emb_in]

/-- So the block's row maximum is the array's at that row. -/
theorem blkMax_blk (c : Dev nD) (t : Fin cfg2.N) (p : Fin 2000) :
    blkMax (iblk2 V c 0 t) p = Cert.Spec.rowMax (V c main_v20) (row t p) := by
  unfold blkMax Cert.Spec.rowMax
  exact congrArg (fun f : Fin 128 → EReal => (Finset.univ : Finset (Fin 128)).fold max (⊥ : EReal) f)
    (funext fun k => blk_apply V c t p k)

/-- The row-wise log-softmax read at (r, q). -/
theorem lsm_apply (h : FVec Ideal Cert.Spec.SN .f32) (r : Fin 50000) (q : Fin 128) :
    Cert.Spec.lsm h (ix2 r q) = (h (ix2 r q) - Cert.Spec.rowMax h r)
      - Ideal.log (∑ k : Fin 128, Ideal.exp (h (ix2 r k) - Cert.Spec.rowMax h r)) := rfl

/-- What point t writes back is block t of the row-wise log-softmax of the array the region finds. -/
theorem flushed_eq (c : Dev nD) (t : Fin cfg2.N) :
    (dat2 (F := Ideal) V c).flushed 1 t
      = ((cfg2.win 1).blk t).view.read (Elt Ideal) (Cert.Spec.lsm (V c main_v20)) := by
  show (cfg2.win 1).cut (grid2.coords t) ((dat2 V c).after 1 t) = _
  rw [after2_1]
  unfold out2_1
  rw [View.canon_unit_zero hz]
  simp only [View.ld_unit_zero (S := S2000x128) hz]
  funext j
  obtain ⟨p, q, rfl⟩ : ∃ (p : Fin 2000) (q : Fin 128), j = ix2 p q := ⟨j 0, j 1, eq_ix2 j⟩
  show k2_pay1 (F := Ideal) (iblk2 V c 0 t) (ix2 p q)
    = Cert.Spec.lsm (V c main_v20) (((cfg2.win 1).blk t).view.emb (ix2 p q))
  rw [pay_apply, emb_out, blkMax_blk, blk_apply, lsm_apply]
  refine congrArg (fun z => _ - Ideal.log z) (Finset.sum_congr rfl fun k _ => ?_)
  rw [blk_apply]

/-- An index of the array is in point t's block iff each coordinate is in the block's range on its axis. -/
theorem mem_blk (t : Fin cfg2.N) (i : S50000x128.Idx) :
    i ∈ ((cfg2.win 1).blk t).view.set ↔ ∀ a : Fin 2, win2_1.index t a * S2000x128.size a ≤ (i a).val
      ∧ (i a).val < win2_1.index t a * S2000x128.size a + S2000x128.size a := by
  show i ∈ ((View.whole main_v21).slice (win2_1.rect t)).set ↔ _
  rw [View.set_slice_whole, Rect.mem_set_unit]
  exact Iff.rfl

/-- Row r lies in the block of point r / 2000, so every index is covered. -/
theorem cover (i : S50000x128.Idx) :
    ∃ t : Fin cfg2.N, (cfg2.win 1).flush t = true ∧ i ∈ ((cfg2.win 1).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by omega⟩, rfl⟩
  obtain ⟨e0, e1, e2, e3⟩ := idx_facts t
  refine ⟨t, flush2_1 t, ?_⟩
  rw [mem_blk]
  intro a
  match a with
  | ⟨0, _⟩ =>
    show win2_1.index t (0 : Fin 2) * 2000 ≤ (i 0).val ∧ (i 0).val < win2_1.index t (0 : Fin 2) * 2000 + 2000
    omega
  | ⟨1, _⟩ =>
    show win2_1.index t (1 : Fin 2) * 128 ≤ (i 1).val ∧ (i 1).val < win2_1.index t (1 : Fin 2) * 128 + 128
    omega

/-- The output array after the region is the row-wise log-softmax of the array the region finds. -/
theorem final (c : Dev nD) :
    (dat2 (F := Ideal) V c).arrAt 1 cfg2.N = Cert.Spec.lsm (V c main_v20) :=
  (dat2 V c).arrAt_eq_of_cover 1 (Cert.Spec.lsm (V c main_v20)) (fun t _ => flushed_eq V c t) cover

end Array

end Cert.KernelIdeal.Lsm

end
-- ==== Proof.KVal.lean ====
/-
  The kernel program's result as one function of its launch memory.

  One round is: two stacked affine layers on every row (`Cert.Spec.lin`), the rows gathered at the 650000 source
  nodes, the gathered rows summed into their destination nodes. The program runs two rounds and takes the row
  log-softmax (`Cert.Spec.lsm`). The buffers' contents are followed boundary by boundary: the first host stretch, region
  0, the two stretches before region 1, region 1, the two stretches before region 2, region 2.
-/
import proofs.«403919_j39032662786372_1_alg».proof.Proof.KRun
import proofs.«403919_j39032662786372_1_alg».proof.Proof.KHost
import proofs.«403919_j39032662786372_1_alg».proof.Proof.KTake
import proofs.«403919_j39032662786372_1_alg».proof.Proof.KLin0
import proofs.«403919_j39032662786372_1_alg».proof.Proof.KLin1
import proofs.«403919_j39032662786372_1_alg».proof.Proof.KLsm

noncomputable section

namespace Cert.KernelIdeal.Val

open Cert.KernelIdeal Cert.KernelIdeal.Gen Cert.KernelIdeal.Stretch
open Idealize.ShloMosaic Idealize.ShloMosaic.TcCoe Idealize.ShloMosaic.ValueIdx Idealize.SL.Sem

/-- A bias vector as the kernel stages it, a [1, 128] row, read along the row. -/
def biasRow (b : FVec Ideal S128 .f32) : Fin 128 → EReal :=
  fun q => shapeCast S1x128 b shapeCasts_S128_S1x128 (ix2 (0 : Fin 1) q)

/-- One round with the guarded gather: layers, rows gathered at the sources, summed into the destinations. -/
def round (e : IVec S2x600000 32) (w1 : FVec Ideal S128x128 .f32) (b1 : FVec Ideal S128 .f32) (w2 : FVec Ideal S128x128 .f32)
    (b2 : FVec Ideal S128 .f32) (x : FVec Ideal S50000x128 .f32) : FVec Ideal S50000x128 .f32 :=
  segSum (ends1 e) (take (Cert.Spec.lin x w1 (biasRow b1) w2 (biasRow b2)) (ends0 e))

variable (m : (ℓ : Loc nD τ sig) → Buf (Elt Ideal) ℓ) (ρ : Dev nD → PrngReg) (c : Dev nD)

/-! ## The first stretch -/

theorem W1_v3 : W1 m ρ c (Proc.devRef .tc main_v3) = ends0 (m ((c : Thread nD τ).loc main_arg1)) := s0_v3 (W0 m ρ c)
theorem W1_v6 : W1 m ρ c (Proc.devRef .tc main_v6) = ends1 (m ((c : Thread nD τ).loc main_arg1)) := s0_v6 (W0 m ρ c)
theorem W1_v7 : W1 m ρ c (Proc.devRef .tc main_v7) = shapeCast S1x128 (m ((c : Thread nD τ).loc main_arg3)) shapeCasts_S128_S1x128 := s0_v7 (W0 m ρ c)
theorem W1_v8 : W1 m ρ c (Proc.devRef .tc main_v8) = shapeCast S1x128 (m ((c : Thread nD τ).loc main_arg5)) shapeCasts_S128_S1x128 := s0_v8 (W0 m ρ c)
theorem W1_arg0 : W1 m ρ c (Proc.devRef .tc main_arg0) = m ((c : Thread nD τ).loc main_arg0) := s0_arg0 (W0 m ρ c)
theorem W1_arg2 : W1 m ρ c (Proc.devRef .tc main_arg2) = m ((c : Thread nD τ).loc main_arg2) := s0_arg2 (W0 m ρ c)
theorem W1_arg3 : W1 m ρ c (Proc.devRef .tc main_arg3) = m ((c : Thread nD τ).loc main_arg3) := s0_arg3 (W0 m ρ c)
theorem W1_arg4 : W1 m ρ c (Proc.devRef .tc main_arg4) = m ((c : Thread nD τ).loc main_arg4) := s0_arg4 (W0 m ρ c)
theorem W1_arg5 : W1 m ρ c (Proc.devRef .tc main_arg5) = m ((c : Thread nD τ).loc main_arg5) := s0_arg5 (W0 m ρ c)

/-! ## Region 0 -/

/-- The first round's layers: what region 0 leaves in its output array. -/
theorem W2_v9 : W2 m ρ c (Proc.devRef .tc main_v9)
    = Cert.Spec.lin (m ((c : Thread nD τ).loc main_arg0)) (m ((c : Thread nD τ).loc main_arg2)) (biasRow (m ((c : Thread nD τ).loc main_arg3)))
        (m ((c : Thread nD τ).loc main_arg4)) (biasRow (m ((c : Thread nD τ).loc main_arg5))) := by
  refine (W2_arr m ρ c 5).trans ((Cert.KernelIdeal.Lin0.final (V1 m ρ) c).trans ?_)
  show Cert.Spec.lin (W1 m ρ c (Proc.devRef .tc main_arg0)) (W1 m ρ c (Proc.devRef .tc main_arg2)) (fun q => W1 m ρ c (Proc.devRef .tc main_v7) (ix2 0 q))
      (W1 m ρ c (Proc.devRef .tc main_arg4)) (fun q => W1 m ρ c (Proc.devRef .tc main_v8) (ix2 0 q)) = _
  rw [W1_arg0, W1_arg2, W1_arg4, W1_v7, W1_v8]
  rfl
theorem W2_v3 : W2 m ρ c (Proc.devRef .tc main_v3) = ends0 (m ((c : Thread nD τ).loc main_arg1)) :=
  (W2_of_ne m ρ c main_v3 (by decide)).trans (W1_v3 m ρ c)
theorem W2_v6 : W2 m ρ c (Proc.devRef .tc main_v6) = ends1 (m ((c : Thread nD τ).loc main_arg1)) :=
  (W2_of_ne m ρ c main_v6 (by decide)).trans (W1_v6 m ρ c)
theorem W2_arg2 : W2 m ρ c (Proc.devRef .tc main_arg2) = m ((c : Thread nD τ).loc main_arg2) :=
  ((W2_arr m ρ c 1).trans (((dat0 (V1 m ρ) c).arrAt_in 1 rfl _).trans (A_eq0 (V1 m ρ) c 1))).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  ((W2_arr m ρ c 3).trans (((dat0 (V1 m ρ) c).arrAt_in 3 rfl _).trans (A_eq0 (V1 m ρ) c 3))).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## The two stretches before region 1 -/

theorem W4_v13 : W4 m ρ c (Proc.devRef .tc main_v13)
    = round (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg0)) := by
  refine (s11_v13 (W3 m ρ c)).trans ?_
  rw [show W3 m ρ c (Proc.devRef .tc main_v6) = _ from s1_v6 (W2 m ρ c), show W3 m ρ c (Proc.devRef .tc main_v10) = _ from s1_v10 (W2 m ρ c),
    W2_v6, W2_v9, W2_v3]
  rfl
theorem W4_v14 : W4 m ρ c (Proc.devRef .tc main_v14) = shapeCast S1x128 (m ((c : Thread nD τ).loc main_arg3)) shapeCasts_S128_S1x128 := by
  refine (s11_v14 (W3 m ρ c)).trans ?_
  rw [show W3 m ρ c (Proc.devRef .tc main_arg3) = _ from s1_arg3 (W2 m ρ c), W2_arg3]
theorem W4_v15 : W4 m ρ c (Proc.devRef .tc main_v15) = shapeCast S1x128 (m ((c : Thread nD τ).loc main_arg5)) shapeCasts_S128_S1x128 := by
  refine (s11_v15 (W3 m ρ c)).trans ?_
  rw [show W3 m ρ c (Proc.devRef .tc main_arg5) = _ from s1_arg5 (W2 m ρ c), W2_arg5]
theorem W4_v3 : W4 m ρ c (Proc.devRef .tc main_v3) = ends0 (m ((c : Thread nD τ).loc main_arg1)) :=
  (s11_v3 (W3 m ρ c)).trans ((s1_v3 (W2 m ρ c)).trans (W2_v3 m ρ c))
theorem W4_v6 : W4 m ρ c (Proc.devRef .tc main_v6) = ends1 (m ((c : Thread nD τ).loc main_arg1)) :=
  (s11_v6 (W3 m ρ c)).trans ((s1_v6 (W2 m ρ c)).trans (W2_v6 m ρ c))
theorem W4_arg2 : W4 m ρ c (Proc.devRef .tc main_arg2) = m ((c : Thread nD τ).loc main_arg2) :=
  (s11_arg2 (W3 m ρ c)).trans ((s1_arg2 (W2 m ρ c)).trans (W2_arg2 m ρ c))
theorem W4_arg4 : W4 m ρ c (Proc.devRef .tc main_arg4) = m ((c : Thread nD τ).loc main_arg4) :=
  (s11_arg4 (W3 m ρ c)).trans ((s1_arg4 (W2 m ρ c)).trans (W2_arg4 m ρ c))

/-! ## Region 1 -/

/-- The second round's layers, over the first round's result. -/
theorem W5_v16 : W5 m ρ c (Proc.devRef .tc main_v16)
    = Cert.Spec.lin (round (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg0)))
        (m ((c : Thread nD τ).loc main_arg2)) (biasRow (m ((c : Thread nD τ).loc main_arg3)))
        (m ((c : Thread nD τ).loc main_arg4)) (biasRow (m ((c : Thread nD τ).loc main_arg5))) := by
  refine (W5_arr m ρ c 5).trans ((Cert.KernelIdeal.Lin1.final (V4 m ρ) c).trans ?_)
  show Cert.Spec.lin (W4 m ρ c (Proc.devRef .tc main_v13)) (W4 m ρ c (Proc.devRef .tc main_arg2)) (fun q => W4 m ρ c (Proc.devRef .tc main_v14) (ix2 0 q))
      (W4 m ρ c (Proc.devRef .tc main_arg4)) (fun q => W4 m ρ c (Proc.devRef .tc main_v15) (ix2 0 q)) = _
  rw [W4_v13, W4_arg2, W4_arg4, W4_v14, W4_v15]
  rfl
theorem W5_v3 : W5 m ρ c (Proc.devRef .tc main_v3) = ends0 (m ((c : Thread nD τ).loc main_arg1)) :=
  (W5_of_ne m ρ c main_v3 (by decide)).trans (W4_v3 m ρ c)
theorem W5_v6 : W5 m ρ c (Proc.devRef .tc main_v6) = ends1 (m ((c : Thread nD τ).loc main_arg1)) :=
  (W5_of_ne m ρ c main_v6 (by decide)).trans (W4_v6 m ρ c)

/-! ## The two stretches before region 2, and region 2 -/

theorem W7_v20 : W7 m ρ c (Proc.devRef .tc main_v20)
    = segSum (F := Ideal) (ends1 (m ((c : Thread nD τ).loc main_arg1))) (take (F := Ideal) (W5 m ρ c (Proc.devRef .tc main_v16)) (ends0 (m ((c : Thread nD τ).loc main_arg1)))) := by
  refine (s21_v20 (W6 m ρ c)).trans ?_
  rw [show W6 m ρ c (Proc.devRef .tc main_v6) = _ from s2_v6 (W5 m ρ c), show W6 m ρ c (Proc.devRef .tc main_v17) = _ from s2_v17 (W5 m ρ c),
    W5_v6, W5_v3]

/-- The program's result buffer at the last boundary: the log-softmax of two rounds over the node features. -/
theorem result : W8 m ρ c (Proc.devRef .tc main_v21)
    = Cert.Spec.lsm (round (m ((c : Thread nD τ).loc main_arg1)) (m ((c : Thread nD τ).loc main_arg2)) (m ((c : Thread nD τ).loc main_arg3))
        (m ((c : Thread nD τ).loc main_arg4)) (m ((c : Thread nD τ).loc main_arg5))
        (round (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg0)))) := by
  refine (W8_arr m ρ c 1).trans ((Cert.KernelIdeal.Lsm.final (V7 m ρ) c).trans ?_)
  show Cert.Spec.lsm (W7 m ρ c (Proc.devRef .tc main_v20)) = _
  rw [W7_v20, W5_v16]
  rfl

end Cert.KernelIdeal.Val

end
-- ==== Proof.RefLists.lean ====
import proofs.«403919_j39032662786372_1_alg».proof.Proof.RefRun

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- The endpoint lists and the first pair of affine layers: operations 1-17. -/
abbrev cA : List (HloOp τ sig (Elt F)) :=
  [ nullary main_v0 (iotaInDim S50000 32 0),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    binary main_v2 main_v0 main_v3 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg1 main_v4 ((extractStridedSlice S1x600000 ![1, 0] · slices_S2x600000_S1x600000_1_0) : (⟨S2x600000, .i32⟩ : BufTy).Contents (Elt F) → (⟨S1x600000, .i32⟩ : BufTy).Contents (Elt F)),
    reshape main_v4 main_v5 rfl shapeCasts_S1x600000_S600000,
    binary main_v5 main_v0 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    unary main_arg2 main_v7 ((transpose S128x128 [1, 0] · transposes_S128x128_S128x128_1_0) : (⟨S128x128, .f32⟩ : BufTy).Contents (Elt F) → (⟨S128x128, .f32⟩ : BufTy).Contents (Elt F)),
    binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v9 (broadcastInDim S1x128 ![1] bcast_S128_S1x128_1 : (⟨S128, .f32⟩ : BufTy).Contents (Elt F) → (⟨S1x128, .f32⟩ : BufTy).Contents (Elt F)),
    unary main_v9 main_v10 (broadcastInDim S50000x128 ![0, 1] bcast_S1x128_S50000x128_0_1 : (⟨S1x128, .f32⟩ : BufTy).Contents (Elt F) → (⟨S50000x128, .f32⟩ : BufTy).Contents (Elt F)),
    binary main_v8 main_v10 main_v11 (addf : (⟨S50000x128, .f32⟩ : BufTy).Contents (Elt F) → (⟨S50000x128, .f32⟩ : BufTy).Contents (Elt F) → (⟨S50000x128, .f32⟩ : BufTy).Contents (Elt F)),
    unary main_arg4 main_v12 ((transpose S128x128 [1, 0] · transposes_S128x128_S128x128_1_0) : (⟨S128x128, .f32⟩ : BufTy).Contents (Elt F) → (⟨S128x128, .f32⟩ : BufTy).Contents (Elt F)),
    binary main_v11 main_v12 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S50000x128 ![0, 1] bcast_S1x128_S50000x128_0_1 : (⟨S1x128, .f32⟩ : BufTy).Contents (Elt F) → (⟨S50000x128, .f32⟩ : BufTy).Contents (Elt F)),
    binary main_v13 main_v15 main_v16 (addf : (⟨S50000x128, .f32⟩ : BufTy).Contents (Elt F) → (⟨S50000x128, .f32⟩ : BufTy).Contents (Elt F) → (⟨S50000x128, .f32⟩ : BufTy).Contents (Elt F)) ]
/-- The first gather and segment sum: operations 18-30. -/
abbrev cB : List (HloOp τ sig (Elt F)) :=
  [ nullary main_c (constantI S_ 32 0#32),
    unary main_c main_v17 (broadcastInDim S650000 ![] bcast_S_S650000 : (⟨S_, .i32⟩ : BufTy).Contents (Elt F) → (⟨S650000, .i32⟩ : BufTy).Contents (Elt F)),
    binary main_v3 main_v17 main_v18 (cmpi .slt : (⟨S650000, .i32⟩ : BufTy).Contents (Elt F) → (⟨S650000, .i32⟩ : BufTy).Contents (Elt F) → (⟨S650000, .i1⟩ : BufTy).Contents (Elt F)),
    nullary main_c_0 (constantI S_ 32 50000#32),
    unary main_c_0 main_v19 (broadcastInDim S650000 ![] bcast_S_S650000 : (⟨S_, .i32⟩ : BufTy).Contents (Elt F) → (⟨S650000, .i32⟩ : BufTy).Contents (Elt F)),
    binary main_v3 main_v19 main_v20 (addi : (⟨S650000, .i32⟩ : BufTy).Contents (Elt F) → (⟨S650000, .i32⟩ : BufTy).Contents (Elt F) → (⟨S650000, .i32⟩ : BufTy).Contents (Elt F)),
    ternary main_v18 main_v20 main_v3 main_v21 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v21 main_v22 (broadcastInDim S650000x1 ![0] bcast_S650000_S650000x1_0 : (⟨S650000, .i32⟩ : BufTy).Contents (Elt F) → (⟨S650000x1, .i32⟩ : BufTy).Contents (Elt F)),
    binary main_v16 main_v22 main_v23 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    nullary main_cst (constant S_ .f32 0x00000000#32),
    unary main_cst main_v24 (broadcastInDim S50000x128 ![] bcast_S_S50000x128 : (⟨S_, .f32⟩ : BufTy).Contents (Elt F) → (⟨S50000x128, .f32⟩ : BufTy).Contents (Elt F)),
    unary main_v6 main_v25 (broadcastInDim S650000x1 ![0] bcast_S650000_S650000x1_0 : (⟨S650000, .i32⟩ : BufTy).Contents (Elt F) → (⟨S650000x1, .i32⟩ : BufTy).Contents (Elt F)),
    ternary main_v24 main_v25 main_v23 main_v26 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
/-- The second pair of affine layers: operations 31-40. -/
abbrev cC : List (HloOp τ sig (Elt F)) :=
  [ unary main_arg2 main_v27 ((transpose S128x128 [1, 0] · transposes_S128x128_S128x128_1_0) : (⟨S128x128, .f32⟩ : BufTy).Contents (Elt F) → (⟨S128x128, .f32⟩ : BufTy).Contents (Elt F)),
    binary main_v26 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v28 main_v30 main_v31 (addf : (⟨S50000x128, .f32⟩ : BufTy).Contents (Elt F) → (⟨S50000x128, .f32⟩ : BufTy).Contents (Elt F) → (⟨S50000x128, .f32⟩ : BufTy).Contents (Elt F)),
    unary main_arg4 main_v32 ((transpose S128x128 [1, 0] · transposes_S128x128_S128x128_1_0) : (⟨S128x128, .f32⟩ : BufTy).Contents (Elt F) → (⟨S128x128, .f32⟩ : BufTy).Contents (Elt F)),
    binary main_v31 main_v32 main_v33 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v34 (broadcastInDim S1x128 ![1] bcast_S128_S1x128_1 : (⟨S128, .f32⟩ : BufTy).Contents (Elt F) → (⟨S1x128, .f32⟩ : BufTy).Contents (Elt F)),
    unary main_v34 main_v35 (broadcastInDim S50000x128 ![0, 1] bcast_S1x128_S50000x128_0_1 : (⟨S1x128, .f32⟩ : BufTy).Contents (Elt F) → (⟨S50000x128, .f32⟩ : BufTy).Contents (Elt F)),
    binary main_v33 main_v35 main_v36 (addf : (⟨S50000x128, .f32⟩ : BufTy).Contents (Elt F) → (⟨S50000x128, .f32⟩ : BufTy).Contents (Elt F) → (⟨S50000x128, .f32⟩ : BufTy).Contents (Elt F)) ]
/-- The second gather and segment sum: operations 41-53. -/
abbrev cD : List (HloOp τ sig (Elt F)) :=
  [ nullary main_c_1 (constantI S_ 32 0#32),
    unary main_c_1 main_v37 (broadcastInDim S650000 ![] bcast_S_S650000 : (⟨S_, .i32⟩ : BufTy).Contents (Elt F) → (⟨S650000, .i32⟩ : BufTy).Contents (Elt F)),
    binary main_v3 main_v37 main_v38 (cmpi .slt : (⟨S650000, .i32⟩ : BufTy).Contents (Elt F) → (⟨S650000, .i32⟩ : BufTy).Contents (Elt F) → (⟨S650000, .i1⟩ : BufTy).Contents (Elt F)),
    nullary main_c_2 (constantI S_ 32 50000#32),
    unary main_c_2 main_v39 (broadcastInDim S650000 ![] bcast_S_S650000 : (⟨S_, .i32⟩ : BufTy).Contents (Elt F) → (⟨S650000, .i32⟩ : BufTy).Contents (Elt F)),
    binary main_v3 main_v39 main_v40 (addi : (⟨S650000, .i32⟩ : BufTy).Contents (Elt F) → (⟨S650000, .i32⟩ : BufTy).Contents (Elt F) → (⟨S650000, .i32⟩ : BufTy).Contents (Elt F)),
    ternary main_v38 main_v40 main_v3 main_v41 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v41 main_v42 (broadcastInDim S650000x1 ![0] bcast_S650000_S650000x1_0 : (⟨S650000, .i32⟩ : BufTy).Contents (Elt F) → (⟨S650000x1, .i32⟩ : BufTy).Contents (Elt F)),
    binary main_v36 main_v42 main_v43 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    nullary main_cst_3 (constant S_ .f32 0x00000000#32),
    unary main_cst_3 main_v44 (broadcastInDim S50000x128 ![] bcast_S_S50000x128 : (⟨S_, .f32⟩ : BufTy).Contents (Elt F) → (⟨S50000x128, .f32⟩ : BufTy).Contents (Elt F)),
    unary main_v6 main_v45 (broadcastInDim S650000x1 ![0] bcast_S650000_S650000x1_0 : (⟨S650000, .i32⟩ : BufTy).Contents (Elt F) → (⟨S650000x1, .i32⟩ : BufTy).Contents (Elt F)),
    ternary main_v44 main_v45 main_v43 main_v46 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)) ]
/-- The row log-softmax, first piece: the row maxima (operations 54-58). -/
abbrev e1 : List (HloOp τ sig (Elt F)) :=
  [ TRef.nullary (TRef.of (T := ⟨S_, .f32⟩) main_call0_cst) (constant S_ .f32 0xFF800000#32),
    TRef.binary (TRef.of (T := ⟨S50000x128, .f32⟩) main_v46) (TRef.of (T := ⟨S_, .f32⟩) main_call0_cst) (TRef.of (T := ⟨S50000, .f32⟩) main_call0_v0) (fun x v => Host.reduce FloatOps.maximumf x v reducesTo_S50000x128_S50000_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S50000, .f32⟩) main_call0_v1) (broadcastInDim S50000 ![] bcast_S_S50000),
    TRef.binary (TRef.of (T := ⟨S50000, .f32⟩) main_call0_v1) (TRef.of (T := ⟨S50000, .f32⟩) main_call0_v0) (TRef.of (T := ⟨S50000, .f32⟩) main_call0_v2) maximumf ]
/-- Second piece: the rows shifted by their maxima (operations 59-61). -/
abbrev e2 : List (HloOp τ sig (Elt F)) :=
  [ TRef.unary (TRef.of (T := ⟨S50000, .f32⟩) main_call0_v2) (TRef.of (T := ⟨S50000x1, .f32⟩) main_call0_v3) (broadcastInDim S50000x1 ![0] bcast_S50000_S50000x1_0),
    TRef.unary (TRef.of (T := ⟨S50000x1, .f32⟩) main_call0_v3) (TRef.of (T := ⟨S50000x128, .f32⟩) main_call0_v4) (broadcastInDim S50000x128 ![0, 1] bcast_S50000x1_S50000x128_0_1),
    TRef.binary (TRef.of (T := ⟨S50000x128, .f32⟩) main_v46) (TRef.of (T := ⟨S50000x128, .f32⟩) main_call0_v4) (TRef.of (T := ⟨S50000x128, .f32⟩) main_call0_v5) subf ]
/-- Third piece: the sums of exponentials of the shifted rows (operations 62-65). -/
abbrev e3 : List (HloOp τ sig (Elt F)) :=
  [ TRef.unary (TRef.of (T := ⟨S50000x128, .f32⟩) main_call0_v5) (TRef.of (T := ⟨S50000x128, .f32⟩) main_call0_v6) Host.exp,
    TRef.nullary (TRef.of (T := ⟨S_, .f32⟩) main_call0_cst_1) (constant S_ .f32 0x00000000#32),
    TRef.binary (TRef.of (T := ⟨S50000x128, .f32⟩) main_call0_v6) (TRef.of (T := ⟨S_, .f32⟩) main_call0_cst_1) (TRef.of (T := ⟨S50000, .f32⟩) main_call0_v7) (fun x v => Host.reduceAdd x v reducesTo_S50000x128_S50000_d1 h_S_),
    TRef.unary (TRef.of (T := ⟨S50000, .f32⟩) main_call0_v7) (TRef.of (T := ⟨S50000x1, .f32⟩) main_call0_v8) (broadcastInDim S50000x1 ![0] bcast_S50000_S50000x1_0) ]
/-- Fourth piece: the logarithms subtracted (operations 66-68). -/
abbrev e4 : List (HloOp τ sig (Elt F)) :=
  [ TRef.unary (TRef.of (T := ⟨S50000x1, .f32⟩) main_call0_v8) (TRef.of (T := ⟨S50000x1, .f32⟩) main_call0_v9) Host.log,
    TRef.unary (TRef.of (T := ⟨S50000x1, .f32⟩) main_call0_v9) (TRef.of (T := ⟨S50000x128, .f32⟩) main_call0_v10) (broadcastInDim S50000x128 ![0, 1] bcast_S50000x1_S50000x128_0_1),
    TRef.binary (TRef.of (T := ⟨S50000x128, .f32⟩) main_call0_v5) (TRef.of (T := ⟨S50000x128, .f32⟩) main_call0_v10) (TRef.of (T := ⟨S50000x128, .f32⟩) main_v47) subf ]

end Cert.ReferenceIdeal.Stretch

end
-- ==== Proof.RefChunks.lean ====
/-
  The reference program's result read off its operations' fold, chunk by chunk, over ANY contents `W` of the buffers when
  a chunk is entered (so that no chunk's result mentions an earlier one's text). The 68 operations fall into five runs:
  the endpoint lists and the first pair of affine layers; the first gather and segment sum; the second pair of layers;
  the second gather and segment sum; the row log-softmax.

  `ends r e` is row `r` of the edge list followed by the self loops 0 … 49999; `wrap s` adds 50000 to the negative
  entries of `s`; `rows h s` gathers the rows `wrap s` of `h`; `segSum d u` adds row `k` of `u` into row `d k` of a zero
  matrix; `layers` and `logSoftmax` are the reference's own spelling of the two affine layers and of the row log-softmax.
-/
import proofs.«403919_j39032662786372_1_alg».proof.Proof.RefLists
import Idealize.ShloMosaic.Lib.Pipeline.Frame

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

def ends0 (e : IVec S2x600000 32) : IVec S650000 32 :=
  concatenate S650000 0 [⟨S600000, shapeCast S600000 (extractStridedSlice S1x600000 ![0, 0] e slices_S2x600000_S1x600000_0_0) shapeCasts_S1x600000_S600000⟩,
    ⟨S50000, iotaInDim S50000 32 0⟩] concatenates_S600000_S50000_S650000_d0

def ends1 (e : IVec S2x600000 32) : IVec S650000 32 :=
  concatenate S650000 0 [⟨S600000, shapeCast S600000 (extractStridedSlice S1x600000 ![1, 0] e slices_S2x600000_S1x600000_1_0) shapeCasts_S1x600000_S600000⟩,
    ⟨S50000, iotaInDim S50000 32 0⟩] concatenates_S600000_S50000_S650000_d0

def wrap (s : IVec S650000 32) : IVec S650000 32 :=
  select (cmpi .slt s (broadcastInDim S650000 ![] bcast_S_S650000 (constantI S_ 32 0#32)))
    (addi s (broadcastInDim S650000 ![] bcast_S_S650000 (constantI S_ 32 50000#32))) s

def rows (h : FVec F S50000x128 .f32) (s : IVec S650000 32) : FVec F S650000x128 .f32 :=
  Host.gather gather_S50000x128_S650000x1_S650000x128_1_0_n_n_0_1_1128 h (broadcastInDim S650000x1 ![0] bcast_S650000_S650000x1_0 (wrap s))

def segSum (d : IVec S650000 32) (u : FVec F S650000x128 .f32) : FVec F S50000x128 .f32 :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 d) u

def layers (x : FVec F S50000x128 .f32) (w1 : FVec F S128x128 .f32) (b1 : FVec F S128 .f32) (w2 : FVec F S128x128 .f32) (b2 : FVec F S128 .f32) :
    FVec F S50000x128 .f32 :=
  addf (Host.dotGeneral dot_S50000x128_S128x128_S50000x128_1_0_0_1_n_n none
          (addf (Host.dotGeneral dot_S50000x128_S128x128_S50000x128_1_0_0_1_n_n none x (transpose S128x128 [1, 0] w1 transposes_S128x128_S128x128_1_0))
                (broadcastInDim S50000x128 ![0, 1] bcast_S1x128_S50000x128_0_1 (broadcastInDim S1x128 ![1] bcast_S128_S1x128_1 b1)))
          (transpose S128x128 [1, 0] w2 transposes_S128x128_S128x128_1_0))
       (broadcastInDim S50000x128 ![0, 1] bcast_S1x128_S50000x128_0_1 (broadcastInDim S1x128 ![1] bcast_S128_S1x128_1 b2))

def logSoftmax (h : FVec F S50000x128 .f32) : FVec F S50000x128 .f32 :=
  subf (subf h (broadcastInDim S50000x128 ![0, 1] bcast_S50000x1_S50000x128_0_1 (broadcastInDim S50000x1 ![0] bcast_S50000_S50000x1_0
            (maximumf (broadcastInDim S50000 ![] bcast_S_S50000 (constant S_ .f32 0xFF800000#32))
                      (Host.reduce FloatOps.maximumf h (constant S_ .f32 0xFF800000#32) reducesTo_S50000x128_S50000_d1 h_S_)))))
       (broadcastInDim S50000x128 ![0, 1] bcast_S50000x1_S50000x128_0_1 (Host.log (broadcastInDim S50000x1 ![0] bcast_S50000_S50000x1_0
            (Host.reduceAdd (Host.exp (subf h (broadcastInDim S50000x128 ![0, 1] bcast_S50000x1_S50000x128_0_1 (broadcastInDim S50000x1 ![0] bcast_S50000_S50000x1_0
                (maximumf (broadcastInDim S50000 ![] bcast_S_S50000 (constant S_ .f32 0xFF800000#32))
                          (Host.reduce FloatOps.maximumf h (constant S_ .f32 0xFF800000#32) reducesTo_S50000x128_S50000_d1 h_S_))))))
               (constant S_ .f32 0x00000000#32) reducesTo_S50000x128_S50000_d1 h_S_))))

/-! ## The operations in eight consecutive lists (Proof/RefLists.lean) make up the whole list -/

theorem ops_split : (ops (F := F)) = cA ++ (cB ++ (cC ++ (cD ++ (e1 ++ (e2 ++ (e3 ++ e4)))))) := rfl

variable (W : Valuation τ sig (Elt F))

theorem after_ops : after (ops (F := F)) W = after e4 (after e3 (after e2 (after e1 (after cD (after cC (after cB (after cA W))))))) := by
  rw [ops_split, StableHlo.after_append, StableHlo.after_append, StableHlo.after_append, StableHlo.after_append,
    StableHlo.after_append, StableHlo.after_append, StableHlo.after_append]

/-! ### The endpoint lists and the first pair of layers -/

end Cert.ReferenceIdeal.Stretch

end
-- ==== Proof.RefA.lean ====
/-
  The reference's first run of operations, over any entry contents: the endpoint lists and the first pair of affine layers; the weights and biases are left alone.
-/
import proofs.«403919_j39032662786372_1_alg».proof.Proof.RefChunks

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

local macro "open_chunk" : tactic => `(tactic| after_results_simp)

/-! ### The endpoint lists and the first pair of layers -/

local macro "open_chunk" : tactic => `(tactic| after_results_simp)

theorem a_v16 : after cA W (Proc.devRef .tc main_v16)
    = layers (W (Proc.devRef .tc main_arg0)) (W (Proc.devRef .tc main_arg2)) (W (Proc.devRef .tc main_arg3)) (W (Proc.devRef .tc main_arg4)) (W (Proc.devRef .tc main_arg5)) := by
  open_chunk <;> rfl
theorem a_v3 : after cA W (Proc.devRef .tc main_v3) = ends0 (W (Proc.devRef .tc main_arg1)) := by open_chunk <;> rfl
theorem a_v6 : after cA W (Proc.devRef .tc main_v6) = ends1 (W (Proc.devRef .tc main_arg1)) := by open_chunk <;> rfl
theorem a_arg2 : after cA W (Proc.devRef .tc main_arg2) = W (Proc.devRef .tc main_arg2) := by open_chunk
theorem a_arg3 : after cA W (Proc.devRef .tc main_arg3) = W (Proc.devRef .tc main_arg3) := by open_chunk
theorem a_arg4 : after cA W (Proc.devRef .tc main_arg4) = W (Proc.devRef .tc main_arg4) := by open_chunk
theorem a_arg5 : after cA W (Proc.devRef .tc main_arg5) = W (Proc.devRef .tc main_arg5) := by open_chunk

end Cert.ReferenceIdeal.Stretch

end
-- ==== Proof.RefB.lean ====
/-
  The reference's second run of operations, over any entry contents: the first gather and segment sum; the endpoint lists, weights and biases are left alone.
-/
import proofs.«403919_j39032662786372_1_alg».proof.Proof.RefChunks

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

local macro "open_chunk" : tactic => `(tactic| after_results_simp)

/-! ### The first gather and segment sum -/

theorem b_v26 : after cB W (Proc.devRef .tc main_v26)
    = segSum (W (Proc.devRef .tc main_v6)) (rows (W (Proc.devRef .tc main_v16)) (W (Proc.devRef .tc main_v3))) := by
  open_chunk <;> rfl
theorem b_v3 : after cB W (Proc.devRef .tc main_v3) = W (Proc.devRef .tc main_v3) := by open_chunk
theorem b_v6 : after cB W (Proc.devRef .tc main_v6) = W (Proc.devRef .tc main_v6) := by open_chunk
theorem b_arg2 : after cB W (Proc.devRef .tc main_arg2) = W (Proc.devRef .tc main_arg2) := by open_chunk
theorem b_arg3 : after cB W (Proc.devRef .tc main_arg3) = W (Proc.devRef .tc main_arg3) := by open_chunk
theorem b_arg4 : after cB W (Proc.devRef .tc main_arg4) = W (Proc.devRef .tc main_arg4) := by open_chunk
theorem b_arg5 : after cB W (Proc.devRef .tc main_arg5) = W (Proc.devRef .tc main_arg5) := by open_chunk

end Cert.ReferenceIdeal.Stretch

end
-- ==== Proof.RefC.lean ====
/-
  The reference's third run of operations, over any entry contents: the second pair of affine layers; the endpoint lists are left alone.
-/
import proofs.«403919_j39032662786372_1_alg».proof.Proof.RefChunks

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

local macro "open_chunk" : tactic => `(tactic| after_results_simp)

/-! ### The second pair of layers -/

theorem c_v36 : after cC W (Proc.devRef .tc main_v36)
    = layers (W (Proc.devRef .tc main_v26)) (W (Proc.devRef .tc main_arg2)) (W (Proc.devRef .tc main_arg3)) (W (Proc.devRef .tc main_arg4)) (W (Proc.devRef .tc main_arg5)) := by
  open_chunk <;> rfl
theorem c_v3 : after cC W (Proc.devRef .tc main_v3) = W (Proc.devRef .tc main_v3) := by open_chunk
theorem c_v6 : after cC W (Proc.devRef .tc main_v6) = W (Proc.devRef .tc main_v6) := by open_chunk

end Cert.ReferenceIdeal.Stretch

end
-- ==== Proof.RefD.lean ====
/-
  The reference's fourth run of operations, over any entry contents: the second gather and segment sum.
-/
import proofs.«403919_j39032662786372_1_alg».proof.Proof.RefChunks

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

local macro "open_chunk" : tactic => `(tactic| after_results_simp)

/-! ### The second gather and segment sum -/

theorem d_v46 : after cD W (Proc.devRef .tc main_v46)
    = segSum (W (Proc.devRef .tc main_v6)) (rows (W (Proc.devRef .tc main_v36)) (W (Proc.devRef .tc main_v3))) := by
  open_chunk <;> rfl

end Cert.ReferenceIdeal.Stretch

end
-- ==== Proof.RefE.lean ====
/-
  The reference's last run of operations, over any entry contents: the row log-softmax, read in four short pieces (row maxima; shifted rows; sums of exponentials; logarithms subtracted) and put together.
-/
import proofs.«403919_j39032662786372_1_alg».proof.Proof.RefChunks

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

/-! ### The row log-softmax, in four pieces -/

local macro "eval_step" : tactic =>
  `(tactic| first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide))

local macro "eval_piece" : tactic =>
  `(tactic| (simp only [after_cons, after_nil]; repeat eval_step))

/-- Contents stored at a typed reference's buffer and read back are the contents. -/
theorem ofBuf_toBuf {T : BufTy} (x : TRef sig T) (v : T.Contents (Elt F)) : x.ofBuf (x.toBuf v) = v := by
  obtain ⟨r, h, _, _⟩ := x
  subst h
  rfl

theorem e1_v2 : after e1 W (Proc.devRef .tc main_call0_v2)
    = maximumf (broadcastInDim S50000 ![] bcast_S_S50000 (constant S_ .f32 0xFF800000#32))
        (Host.reduce FloatOps.maximumf (W (Proc.devRef .tc main_v46)) (constant S_ .f32 0xFF800000#32) reducesTo_S50000x128_S50000_d1 h_S_) := by
  eval_piece
  simp only [ofBuf_toBuf]
  rfl
theorem e1_v46 : after e1 W (Proc.devRef .tc main_v46) = W (Proc.devRef .tc main_v46) := by eval_piece
theorem e2_v5 : after e2 W (Proc.devRef .tc main_call0_v5)
    = subf (W (Proc.devRef .tc main_v46))
        (broadcastInDim S50000x128 ![0, 1] bcast_S50000x1_S50000x128_0_1 (broadcastInDim S50000x1 ![0] bcast_S50000_S50000x1_0 (W (Proc.devRef .tc main_call0_v2)))) := by
  eval_piece
  rfl
theorem e3_v8 : after e3 W (Proc.devRef .tc main_call0_v8)
    = broadcastInDim S50000x1 ![0] bcast_S50000_S50000x1_0
        (Host.reduceAdd (Host.exp (W (Proc.devRef .tc main_call0_v5))) (constant S_ .f32 0x00000000#32) reducesTo_S50000x128_S50000_d1 h_S_) := by
  eval_piece
  rfl
theorem e3_v5 : after e3 W (Proc.devRef .tc main_call0_v5) = W (Proc.devRef .tc main_call0_v5) := by eval_piece
theorem e4_v47 : after e4 W (Proc.devRef .tc main_v47)
    = subf (W (Proc.devRef .tc main_call0_v5))
        (broadcastInDim S50000x128 ![0, 1] bcast_S50000x1_S50000x128_0_1 (Host.log (W (Proc.devRef .tc main_call0_v8)))) := by
  eval_piece
  rfl

/-- The four pieces together: the row log-softmax of what the chunk finds in `main_v46`. -/
theorem e_v47 : after e4 (after e3 (after e2 (after e1 W))) (Proc.devRef .tc main_v47) = logSoftmax (W (Proc.devRef .tc main_v46)) := by
  rw [e4_v47, e3_v8, e3_v5, e2_v5, e1_v2, e1_v46]
  rfl

end Cert.ReferenceIdeal.Stretch

end
-- ==== Proof.RefVal.lean ====
/-
  The reference's result buffer after all 68 operations, from any launch contents: the five runs' results chained.
-/
import proofs.«403919_j39032662786372_1_alg».proof.Proof.RefA
import proofs.«403919_j39032662786372_1_alg».proof.Proof.RefB
import proofs.«403919_j39032662786372_1_alg».proof.Proof.RefC
import proofs.«403919_j39032662786372_1_alg».proof.Proof.RefD
import proofs.«403919_j39032662786372_1_alg».proof.Proof.RefE

noncomputable section

namespace Cert.ReferenceIdeal.Stretch

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F] (W : Valuation τ sig (Elt F))

/-! ## The result -/

/-- The reference's result buffer after all 68 operations, from any launch contents: the log-softmax of the second
    round of layers, gather and segment sum over the first. -/
theorem result : after (ops (F := F)) W (Proc.devRef .tc main_v47)
    = logSoftmax (segSum (ends1 (W (Proc.devRef .tc main_arg1)))
        (rows (layers (segSum (ends1 (W (Proc.devRef .tc main_arg1)))
                (rows (layers (W (Proc.devRef .tc main_arg0)) (W (Proc.devRef .tc main_arg2)) (W (Proc.devRef .tc main_arg3)) (W (Proc.devRef .tc main_arg4)) (W (Proc.devRef .tc main_arg5)))
                      (ends0 (W (Proc.devRef .tc main_arg1)))))
              (W (Proc.devRef .tc main_arg2)) (W (Proc.devRef .tc main_arg3)) (W (Proc.devRef .tc main_arg4)) (W (Proc.devRef .tc main_arg5)))
          (ends0 (W (Proc.devRef .tc main_arg1))))) := by
  rw [after_ops, e_v47, d_v46, c_v36, c_v3, c_v6, b_v26, b_v3, b_v6, b_arg2, b_arg3, b_arg4, b_arg5,
    a_v16, a_v3, a_v6, a_arg2, a_arg3, a_arg4, a_arg5]

end Cert.ReferenceIdeal.Stretch

end
-- ==== Proof.RefSpec.lean ====
/-
  The reference's two sub-terms, read at an index, are the specification's functions.

  The stacked affine layers: each `dot_general` against a transposed weight is, at row `r` and column `j`, the sum over
  `k` of the left operand at `(r, k)` times the weight at `(j, k)`; each bias is broadcast along the rows. The row
  log-softmax: the max-reduce from `-∞` is the fold of `max` from `⊥` over the row (the extra maximum with the `-∞` splat
  changes nothing), the add-reduce from the zero word is the row's sum, and the two keepdims broadcasts read a row's value
  at every column. Both sides are the same nested sums and folds; nothing is distributed.
-/
import proofs.«403919_j39032662786372_1_alg».proof.Proof.Gen.ReferenceIdeal
import proofs.«403919_j39032662786372_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.ReferenceIdeal.RefSpec

open Cert.ReferenceIdeal Cert.ReferenceIdeal.Gen Idealize.ShloMosaic Idealize.ShloMosaic.ValueIdx

/-! ## The layout operations at an index -/

/-- The transposed weight at `(a, b)` is the weight at `(b, a)`. -/
theorem transpose_w_apply (w : FVec Ideal S128x128 .f32) (i : S128x128.Idx) :
    transpose S128x128 [1, 0] w transposes_S128x128_S128x128_1_0 i = w (ix2 (i 1) (i 0)) :=
  transpose_apply [1, 0] w transposes_S128x128_S128x128_1_0 i (ix2 (i 1) (i 0)) (fun b => match b with
    | ⟨0, _⟩ => rfl
    | ⟨1, _⟩ => rfl)

/-- A bias broadcast to one row and then down the rows reads, at `(r, j)`, its entry `j`. -/
theorem bias_apply (b : FVec Ideal S128 .f32) (i : S50000x128.Idx) :
    broadcastInDim S50000x128 ![0, 1] bcast_S1x128_S50000x128_0_1 (broadcastInDim S1x128 ![1] bcast_S128_S1x128_1 b) i
      = b (ix1 (i 1)) :=
  (broadcastInDim_apply _ bcast_S1x128_S50000x128_0_1 _ i (ix2 (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans
  (broadcastInDim_apply _ bcast_S128_S1x128_1 b _ (ix1 (i 1)) (fun a => match a with
    | ⟨0, _⟩ => by show (i 1).val = if (128 : Nat) = 1 then 0 else (i 1).val; rw [if_neg (by decide)]))

/-- A per-row value broadcast to a column and then along the row reads, at `(r, j)`, the value of row `r`. -/
theorem keepdims_apply (v : FVec Ideal S50000 .f32) (i : S50000x128.Idx) :
    broadcastInDim S50000x128 ![0, 1] bcast_S50000x1_S50000x128_0_1 (broadcastInDim S50000x1 ![0] bcast_S50000_S50000x1_0 v) i
      = v (ix1 (i 0)) :=
  (broadcastInDim_apply _ bcast_S50000x1_S50000x128_0_1 _ i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans
  (broadcastInDim_apply _ bcast_S50000_S50000x1_0 v _ (ix1 (i 0)) (fun a => match a with
    | ⟨0, _⟩ => by show (i 0).val = if (50000 : Nat) = 1 then 0 else (i 0).val; rw [if_neg (by decide)]))

/-- The column of per-row values alone, read at `(r, 0)`. -/
theorem column_apply (v : FVec Ideal S50000 .f32) (i : S50000x1.Idx) :
    broadcastInDim S50000x1 ![0] bcast_S50000_S50000x1_0 v i = v (ix1 (i 0)) :=
  broadcastInDim_apply _ bcast_S50000_S50000x1_0 v i (ix1 (i 0)) (fun a => match a with
    | ⟨0, _⟩ => by show (i 0).val = if (50000 : Nat) = 1 then 0 else (i 0).val; rw [if_neg (by decide)])

/-- A column broadcast along the row reads, at `(r, j)`, the column at `(r, 0)`. -/
theorem alongRow_apply (v : FVec Ideal S50000x1 .f32) (i : S50000x128.Idx) :
    broadcastInDim S50000x128 ![0, 1] bcast_S50000x1_S50000x128_0_1 v i = v (ix2 (i 0) (0 : Fin 1)) :=
  broadcastInDim_apply _ bcast_S50000x1_S50000x128_0_1 v i (ix2 (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The `-∞` splat over the rows is `⊥` at every row. -/
theorem negInf_apply (j : S50000.Idx) :
    broadcastInDim S50000 ![] bcast_S_S50000 (constant (F := Ideal) S_ .f32 0xFF800000#32) j = Ideal.ofBits .f32 0xFF800000#32 :=
  broadcastInDim_apply _ bcast_S_S50000 (constant (F := Ideal) S_ .f32 0xFF800000#32) j (fun a => a.elim0) (fun a => a.elim0)

/-! ## The `dot_general` at an index -/

theorem lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's `dot_general` at `(r, j)`: the sum over `k` of the left operand at `(r, k)` times the right at `(k, j)`. -/
theorem dot_apply (l : FVec Ideal S50000x128 .f32) (r : FVec Ideal S128x128 .f32) (i : S50000x128.Idx) :
    Host.dotGeneral dot_S50000x128_S128x128_S50000x128_1_0_0_1_n_n none l r i = ∑ k : Fin 128, l (ix2 (i 0) k) * r (ix2 k (i 1)) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = (ix2 (i 0) k : S50000x128.Idx) := funext fun a => Fin.ext (by
    match a with
    | ⟨0, _⟩ => exact lhs_0 _ _
    | ⟨1, _⟩ => exact (lhs_1 _ _).trans hk)
  have er : dot_S50000x128_S128x128_S50000x128_1_0_0_1_n_n.rhsIdx i ((contrEquiv1 dot_S50000x128_S128x128_S50000x128_1_0_0_1_n_n 128 rfl rfl).symm k) = (ix2 k (i 1) : S128x128.Idx) := funext fun a => Fin.ext (by
    match a with
    | ⟨0, _⟩ => exact (rhs_0 _ _).trans hk
    | ⟨1, _⟩ => exact rhs_1 _ _)
  rw [el, er]

/-- One affine layer at `(r, j)`: `∑ k, l[r,k] · w[j,k] + b[j]`. -/
theorem layer_apply (l : FVec Ideal S50000x128 .f32) (w : FVec Ideal S128x128 .f32) (b : FVec Ideal S128 .f32) (i : S50000x128.Idx) :
    addf (Host.dotGeneral dot_S50000x128_S128x128_S50000x128_1_0_0_1_n_n none l (transpose S128x128 [1, 0] w transposes_S128x128_S128x128_1_0))
         (broadcastInDim S50000x128 ![0, 1] bcast_S1x128_S50000x128_0_1 (broadcastInDim S1x128 ![1] bcast_S128_S1x128_1 b)) i
      = (∑ k : Fin 128, l (ix2 (i 0) k) * w (ix2 (i 1) k)) + b (ix1 (i 1)) := by
  rw [addf_apply, bias_apply, dot_apply]
  refine congrArg (· + b (ix1 (i 1))) (Finset.sum_congr rfl fun k _ => ?_)
  rw [transpose_w_apply]

theorem lin_eq (x : FVec Ideal S50000x128 .f32) (w1 w2 : FVec Ideal S128x128 .f32) (b1 b2 : FVec Ideal S128 .f32) :
    addf (Host.dotGeneral dot_S50000x128_S128x128_S50000x128_1_0_0_1_n_n none
              (addf (Host.dotGeneral dot_S50000x128_S128x128_S50000x128_1_0_0_1_n_n none x (transpose S128x128 [1, 0] w1 transposes_S128x128_S128x128_1_0))
                    (broadcastInDim S50000x128 ![0, 1] bcast_S1x128_S50000x128_0_1 (broadcastInDim S1x128 ![1] bcast_S128_S1x128_1 b1)))
              (transpose S128x128 [1, 0] w2 transposes_S128x128_S128x128_1_0))
           (broadcastInDim S50000x128 ![0, 1] bcast_S1x128_S50000x128_0_1 (broadcastInDim S1x128 ![1] bcast_S128_S1x128_1 b2))
        = Cert.Spec.lin x w1 (fun q => b1 (ix1 q)) w2 (fun q => b2 (ix1 q)) := by
  funext i
  rw [layer_apply]
  unfold Cert.Spec.lin
  refine congrArg (· + b2 (ix1 (i 1))) (Finset.sum_congr rfl fun k _ => ?_)
  rw [layer_apply]

/-! ## The row log-softmax -/

theorem reduces_d1 : S50000x128.Reduces [1] S50000 := by decide

/-- The `-∞` word is the least extended real. -/
theorem negInf_eq_bot : Ideal.ofBits .f32 0xFF800000#32 = (⊥ : EReal) := by simp [Ideal.ofBits, Ideal.ieee]

/-- The row `r` with column `k` put back is `(r, k)`. -/
theorem lift_d1 (j : S50000.Idx) (k : Fin 128) : reduces_d1.lift j k = (ix2 (j 0) k : S50000x128.Idx) :=
  funext fun a => Fin.ext (by match a with | ⟨0, _⟩ => rfl | ⟨1, _⟩ => rfl)

/-- The max-reduce from `-∞` over the row, at row `r`: the fold of `max` from `⊥` over the row's entries. -/
theorem rowMax_apply (h : FVec Ideal S50000x128 .f32) (j : S50000.Idx) :
    Host.reduce FloatOps.maximumf h (constant (F := Ideal) S_ .f32 0xFF800000#32) reducesTo_S50000x128_S50000_d1 h_S_ j
      = Cert.Spec.rowMax h (j 0) := by
  rw [Host.reduce_eq_fold_single FloatOps.maximumf h _ reducesTo_S50000x128_S50000_d1 reduces_d1 h_S_]
  unfold Cert.Spec.rowMax
  have hb : constant (F := Ideal) S_ .f32 0xFF800000#32 (Shape.Idx.first h_S_) = (⊥ : EReal) := negInf_eq_bot
  have hf : (h ∘ reduces_d1.lift j) = fun k : Fin 128 => h (ix2 (j 0) k) := funext fun k => congrArg h (lift_d1 j k)
  rw [hb]
  exact congrArg (fun f => Finset.fold max (⊥ : EReal) f (Finset.univ : Finset (Fin 128))) hf

/-- The reference's row maximum, taken once more against the `-∞` splat: still the row's maximum (`max ⊥ a = a`). -/
theorem refMax_apply (h : FVec Ideal S50000x128 .f32) (j : S50000.Idx) :
    maximumf (broadcastInDim S50000 ![] bcast_S_S50000 (constant (F := Ideal) S_ .f32 0xFF800000#32))
             (Host.reduce FloatOps.maximumf h (constant (F := Ideal) S_ .f32 0xFF800000#32) reducesTo_S50000x128_S50000_d1 h_S_) j
      = Cert.Spec.rowMax h (j 0) := by
  rw [maximumf_apply, negInf_apply, rowMax_apply, negInf_eq_bot]
  exact max_bot_left _

/-- An entry minus its row's maximum. -/
theorem shifted_apply (h : FVec Ideal S50000x128 .f32) (i : S50000x128.Idx) :
    subf h (broadcastInDim S50000x128 ![0, 1] bcast_S50000x1_S50000x128_0_1 (broadcastInDim S50000x1 ![0] bcast_S50000_S50000x1_0
                (maximumf (broadcastInDim S50000 ![] bcast_S_S50000 (constant (F := Ideal) S_ .f32 0xFF800000#32))
                          (Host.reduce FloatOps.maximumf h (constant (F := Ideal) S_ .f32 0xFF800000#32) reducesTo_S50000x128_S50000_d1 h_S_)))) i
      = h i - Cert.Spec.rowMax h (i 0) := by
  rw [subf_apply, keepdims_apply, refMax_apply]

/-- The host's exponential and logarithm are pointwise. -/
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-- The add-reduce from the zero word over the row, at row `r`: the row's sum. -/
theorem rowSum_apply (e : FVec Ideal S50000x128 .f32) (j : S50000.Idx) :
    Host.reduceAdd e (constant (F := Ideal) S_ .f32 0x00000000#32) reducesTo_S50000x128_S50000_d1 h_S_ j
      = ∑ k : Fin 128, e (ix2 (j 0) k) := by
  simp only [Host.reduceAdd, Ideal.hostReduceAdd_def]
  rw [Ideal.hostReduceAdd_single reducesTo_S50000x128_S50000_d1 reduces_d1]
  have hz : constant (F := Ideal) S_ .f32 0x00000000#32 (Shape.Idx.first h_S_) = (0 : EReal) := Ideal.ofBits_zero_f32
  rw [hz, zero_add]
  exact Finset.sum_congr rfl fun k _ => congrArg e (lift_d1 j k)

theorem lsm_eq (h : FVec Ideal S50000x128 .f32) :
    subf (subf h (broadcastInDim S50000x128 ![0, 1] bcast_S50000x1_S50000x128_0_1 (broadcastInDim S50000x1 ![0] bcast_S50000_S50000x1_0
                (maximumf (broadcastInDim S50000 ![] bcast_S_S50000 (constant S_ .f32 0xFF800000#32))
                          (Host.reduce FloatOps.maximumf h (constant S_ .f32 0xFF800000#32) reducesTo_S50000x128_S50000_d1 h_S_)))))
           (broadcastInDim S50000x128 ![0, 1] bcast_S50000x1_S50000x128_0_1 (Host.log (broadcastInDim S50000x1 ![0] bcast_S50000_S50000x1_0
                (Host.reduceAdd (Host.exp (subf h (broadcastInDim S50000x128 ![0, 1] bcast_S50000x1_S50000x128_0_1 (broadcastInDim S50000x1 ![0] bcast_S50000_S50000x1_0
                    (maximumf (broadcastInDim S50000 ![] bcast_S_S50000 (constant S_ .f32 0xFF800000#32))
                              (Host.reduce FloatOps.maximumf h (constant S_ .f32 0xFF800000#32) reducesTo_S50000x128_S50000_d1 h_S_))))))
                   (constant S_ .f32 0x00000000#32) reducesTo_S50000x128_S50000_d1 h_S_))))
        = Cert.Spec.lsm h := by
  funext i
  rw [subf_apply, shifted_apply, alongRow_apply, hostLog_apply, column_apply, rowSum_apply]
  unfold Cert.Spec.lsm
  refine congrArg (fun s => (h i - Cert.Spec.rowMax h (i 0)) - Ideal.log s) (Finset.sum_congr rfl fun k _ => ?_)
  rw [hostExp_apply, shifted_apply]

end Cert.ReferenceIdeal.RefSpec

end
-- ==== Proof.PreDecode.lean ====
import proofs.«403919_j39032662786372_1_alg».proof.Pre_finite_inputs
import Idealize.ShloMosaic.Lib.ReduceAll
import Idealize.ShloMosaic.Lib.ValueIdx
import Idealize.ShloMosaic.Lib.Pipeline.Value
import Idealize.ShloMosaic.Lib.StableHlo.Predicate

/-!
# The index range stated by the precondition

The precondition's last conjunct is `jnp.all((edge_index[0] >= -50000) & (edge_index[0] < 50000))`:
row 0 of the [2, 600000] edge list is sliced out, flattened to a vector of 600000 words, compared
(signed) with the two bounds broadcast from scalars, the two masks are and-ed, and the result is
and-reduced from 1. When the whole precondition is 1, every source index therefore lies in
[-50000, 50000) as a signed integer. This file reads that fact back at an arbitrary column `j`,
without enumerating the columns.
-/

noncomputable section

namespace Cert.Pre_finite_inputs.Decode

open Cert.Pre_finite_inputs Idealize.ShloMosaic Idealize.ShloMosaic.ValueIdx

variable [Cert.Pre_finite_inputs.Facts] {F : FTy → Type} [FloatOps F]

/-- The scalar shape has exactly one index. -/
local instance : Subsingleton S_.Idx := ⟨fun _ _ => funext fun d => d.elim0⟩

/-- The word 4294917296 read signed is -50000 (2³² - 50000 has its top bit set). -/
theorem toInt_lo : (4294917296#32 : BitVec 32).toInt = -50000 := by decide

/-- The word 50000 read signed is 50000. -/
theorem toInt_hi : (50000#32 : BitVec 32).toInt = 50000 := by decide

/-- Row 0 of the edge list, sliced out as a [1, 600000] array and flattened to a vector: its entry `j`
    is the entry (0, j) of the list. The slice has offset (0, 0), so (0, j) of the slice is (0, j) of the
    list; the flattening keeps the row-major position, 0 * 600000 + j = j. -/
theorem row0_apply (e : IVec S2x600000 32) (j : Fin 600000) :
    shapeCast S600000 (extractStridedSlice S1x600000 ![0, 0] e Facts.slices_S2x600000_S1x600000_0_0)
        Facts.shapeCasts_S1x600000_S600000 (ix1 j)
      = e (ix2 (0 : Fin 2) j) := by
  refine (shapeCast_apply _ Facts.shapeCasts_S1x600000_S600000 (ix1 j) (ix2 (0 : Fin 1) j) ?_).trans ?_
  · rewrite [Shape.rowMajor_val_two, Shape.rowMajor_val_one]
    show 0 * 600000 + j.val = j.val
    omega
  · exact extractStridedSlice_apply ![0, 0] e Facts.slices_S2x600000_S1x600000_0_0 (ix2 (0 : Fin 1) j) (ix2 (0 : Fin 2) j)
      (fun a => match a with
        | ⟨0, _⟩ => by show (0 : Nat) = 0 + 0; rfl
        | ⟨1, _⟩ => by show j.val = 0 + j.val; omega)

/-- A scalar word broadcast to the vector shape reads that word at every position. -/
theorem bcast_const_apply (c : BitVec 32) (i : S600000.Idx) :
    broadcastInDim S600000 ![] Facts.bcast_S_S600000 (constantI S_ 32 c) i = c := rfl

/-- If the printed precondition holds (its one word is 1), then every source index `e (0, j)`,
    read as a signed integer, lies in [-50000, 50000). -/
theorem src_range (x : FVec F S50000x128 .f32) (e : IVec S2x600000 32) (w1 : FVec F S128x128 .f32) (b1 : FVec F S128 .f32)
    (w2 : FVec F S128x128 .f32) (b2 : FVec F S128 .f32)
    (h : Cert.Pre_finite_inputs.fn (F := F) x e w1 b1 w2 b2 = fun _ => 1#1) (j : Fin 600000) :
    -50000 ≤ (e (ix2 0 j)).toInt ∧ (e (ix2 0 j)).toInt < 50000 := by
  -- the precondition's word, with the chain of operations in view: an `and` whose right operand is the index test
  have h0 := congrFun h ix0
  dsimp only [fn, fn_part1] at h0
  -- the outermost `and` is 1, so its last conjunct, the and-reduction of the range mask, is 1
  have h1 := (IntOp.andi_eq_one.1 h0).2
  -- an and-reduction to a scalar that is 1 had a 1 at every position: take position `j`
  have h2 := Host.reduce_andi_all _ _ Facts.reducesTo_S600000_S_d0 Facts.h_S_ ix0 h1 (ix1 j)
  -- the mask at `j` is the `and` of the two comparisons at `j`
  obtain ⟨hge, hlt⟩ := IntOp.andi_eq_one.1 h2
  -- read the two signed comparisons back as integer inequalities
  have hge' := IntOp.cmpi_sge.1 hge
  have hlt' := IntOp.cmpi_slt.1 hlt
  rw [row0_apply e j] at hge' hlt'
  rw [bcast_const_apply, toInt_lo] at hge'
  rw [bcast_const_apply, toInt_hi] at hlt'
  exact ⟨hge', hlt'⟩

end Cert.Pre_finite_inputs.Decode
-- ==== Proof.Bridge.lean ====
/-
  The two programs' values are one function of the arguments.

  Both programs apply the same host operations (the endpoint lists, the gather, the segment sum) over the same literal
  shapes, so those are the same functions; the reference's two affine layers and its row log-softmax are
  `Cert.Spec.lin` and `Cert.Spec.lsm`; a bias vector read along the kernel's [1, 128] row is the vector itself; and
  under the precondition every wrapped source node number is in 0 … 49999, so the kernel's guarded gather replaces no
  row.
-/
import proofs.«403919_j39032662786372_1_alg».proof.Proof.KVal
import proofs.«403919_j39032662786372_1_alg».proof.Proof.RefVal
import proofs.«403919_j39032662786372_1_alg».proof.Proof.RefSpec
import proofs.«403919_j39032662786372_1_alg».proof.Proof.PreDecode
import proofs.«403919_j39032662786372_1_alg».proof.Proof.Gen.Pre_finite_inputs

noncomputable section

namespace Cert.Bridge

open Idealize.ShloMosaic Idealize.ShloMosaic.ValueIdx

/-! ## The reference's host operations are the kernel program's -/

theorem ends0_eq (e : IVec Cert.KernelIdeal.S2x600000 32) : Cert.ReferenceIdeal.Stretch.ends0 e = Cert.KernelIdeal.Stretch.ends0 e := rfl
theorem ends1_eq (e : IVec Cert.KernelIdeal.S2x600000 32) : Cert.ReferenceIdeal.Stretch.ends1 e = Cert.KernelIdeal.Stretch.ends1 e := rfl
theorem segSum_eq (d : IVec Cert.KernelIdeal.S650000 32) (u : FVec Ideal Cert.KernelIdeal.S650000x128 .f32) :
    Cert.ReferenceIdeal.Stretch.segSum d u = Cert.KernelIdeal.Stretch.segSum d u := rfl
theorem rows_eq (h : FVec Ideal Cert.KernelIdeal.S50000x128 .f32) (s : IVec Cert.KernelIdeal.S650000 32) :
    Cert.ReferenceIdeal.Stretch.rows h s
      = Host.gather Cert.KernelIdeal.gather_S50000x128_S650000x1_S650000x128_1_0_n_n_0_1_1128 h (Cert.KernelIdeal.Stretch.col s) := rfl

/-! ## A bias vector along the kernel's row -/

theorem biasRow_eq (b : FVec Ideal Cert.KernelIdeal.S128 .f32) : Cert.KernelIdeal.Val.biasRow b = fun q => b (ix1 q) := by
  funext q
  unfold Cert.KernelIdeal.Val.biasRow
  exact shapeCast_apply b Cert.KernelIdeal.Facts₀.shapeCasts_S128_S1x128 (ix2 (0 : Fin 1) q) (ix1 q)
    (by rewrite [Shape.rowMajor_val_two, Shape.rowMajor_val_one]; show q.val = 0 * 128 + q.val; omega)

/-! ## One round, on either side -/

/-- One round with the plain gather, over the kernel program's names. -/
def round (e : IVec Cert.KernelIdeal.S2x600000 32) (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32) (x : FVec Ideal Cert.KernelIdeal.S50000x128 .f32) :
    FVec Ideal Cert.KernelIdeal.S50000x128 .f32 :=
  Cert.KernelIdeal.Stretch.segSum (Cert.KernelIdeal.Stretch.ends1 e)
    (Host.gather Cert.KernelIdeal.gather_S50000x128_S650000x1_S650000x128_1_0_n_n_0_1_1128
      (Cert.Spec.lin x w1 (fun q => b1 (ix1 q)) w2 (fun q => b2 (ix1 q))) (Cert.KernelIdeal.Stretch.col (Cert.KernelIdeal.Stretch.ends0 e)))

/-- The kernel program's round is that, when every wrapped source number is in range. -/
theorem kernel_round (e : IVec Cert.KernelIdeal.S2x600000 32) (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32) (x : FVec Ideal Cert.KernelIdeal.S50000x128 .f32)
    (hs : ∀ k : Cert.KernelIdeal.S650000.Idx, 0 ≤ (Cert.KernelIdeal.Stretch.wrap (Cert.KernelIdeal.Stretch.ends0 e) k).toInt
      ∧ (Cert.KernelIdeal.Stretch.wrap (Cert.KernelIdeal.Stretch.ends0 e) k).toInt ≤ 49999) :
    Cert.KernelIdeal.Val.round e w1 b1 w2 b2 x = round e w1 b1 w2 b2 x := by
  unfold Cert.KernelIdeal.Val.round round
  rw [Cert.KernelIdeal.Stretch.take_eq _ _ hs, biasRow_eq, biasRow_eq]

/-- The reference's round is that. -/
theorem reference_round (e : IVec Cert.KernelIdeal.S2x600000 32) (w1 : FVec Ideal Cert.KernelIdeal.S128x128 .f32) (b1 : FVec Ideal Cert.KernelIdeal.S128 .f32)
    (w2 : FVec Ideal Cert.KernelIdeal.S128x128 .f32) (b2 : FVec Ideal Cert.KernelIdeal.S128 .f32) (x : FVec Ideal Cert.KernelIdeal.S50000x128 .f32) :
    Cert.ReferenceIdeal.Stretch.segSum (Cert.ReferenceIdeal.Stretch.ends1 e)
        (Cert.ReferenceIdeal.Stretch.rows (Cert.ReferenceIdeal.Stretch.layers x w1 b1 w2 b2) (Cert.ReferenceIdeal.Stretch.ends0 e))
      = round e w1 b1 w2 b2 x := by
  rw [show Cert.ReferenceIdeal.Stretch.layers x w1 b1 w2 b2 = Cert.Spec.lin x w1 (fun q => b1 (ix1 q)) w2 (fun q => b2 (ix1 q))
        from Cert.ReferenceIdeal.RefSpec.lin_eq x w1 w2 b1 b2]
  rfl

/-! ## The precondition's index range -/

/-- Under the precondition every wrapped source node number is in 0 … 49999. -/
theorem wrapped_in_range (x : FVec Ideal Cert.KernelIdeal.S50000x128 .f32) (e : IVec Cert.KernelIdeal.S2x600000 32)
    (w1 : FVec Ideal Cert.KernelIdeal.S128x128 .f32) (b1 : FVec Ideal Cert.KernelIdeal.S128 .f32) (w2 : FVec Ideal Cert.KernelIdeal.S128x128 .f32)
    (b2 : FVec Ideal Cert.KernelIdeal.S128 .f32)
    (h : Cert.Pre_finite_inputs.fn (F := Ideal) x e w1 b1 w2 b2 = fun _ => 1#1) (k : Cert.KernelIdeal.S650000.Idx) :
    0 ≤ (Cert.KernelIdeal.Stretch.wrap (Cert.KernelIdeal.Stretch.ends0 e) k).toInt
      ∧ (Cert.KernelIdeal.Stretch.wrap (Cert.KernelIdeal.Stretch.ends0 e) k).toInt ≤ 49999 :=
  Cert.KernelIdeal.Stretch.wrap_range _ k
    (Cert.KernelIdeal.Stretch.ends0_range e (fun j => Cert.Pre_finite_inputs.Decode.src_range x e w1 b1 w2 b2 h j) k)

/-! ## The two results -/

open Idealize.ShloMosaic.TcCoe Idealize.SL.Sem Idealize.ShloMosaic.StableHlo in
/-- The kernel program's result buffer, under the precondition: the log-softmax of two rounds over the node features. -/
theorem kernel_value (m : (ℓ : Loc Cert.KernelIdeal.nD Cert.KernelIdeal.τ Cert.KernelIdeal.sig) → Buf (Elt Ideal) ℓ) (ρ : Dev Cert.KernelIdeal.nD → PrngReg)
    (c : Dev Cert.KernelIdeal.nD)
    (h : Cert.Pre_finite_inputs.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.KernelIdeal.Gen.W8 m ρ c (Proc.devRef .tc Cert.KernelIdeal.main_v21)
      = Cert.Spec.lsm (round (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (round (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4))
            (m ((c.tc : Thread Cert.KernelIdeal.nD Cert.KernelIdeal.τ).loc Cert.KernelIdeal.main_arg5)) (m ((c.tc : Thread Cert.KernelIdeal.nD Cert.KernelIdeal.τ).loc Cert.KernelIdeal.main_arg0)))) := by
  rw [Cert.KernelIdeal.Val.result, kernel_round _ _ _ _ _ _ (wrapped_in_range _ _ _ _ _ _ h), kernel_round _ _ _ _ _ _ (wrapped_in_range _ _ _ _ _ _ h)]

open Idealize.ShloMosaic.TcCoe Idealize.SL.Sem Idealize.ShloMosaic.StableHlo in
/-- The reference's result buffer: the same function of its own launch memory. -/
theorem reference_value (m' : (ℓ : Loc Cert.ReferenceIdeal.nD Cert.ReferenceIdeal.τ Cert.ReferenceIdeal.sig) → Buf (Elt Ideal) ℓ) (c : Dev Cert.ReferenceIdeal.nD) :
    after (Cert.ReferenceIdeal.ValueP.ops (F := Ideal)) (launchContents m' c) (Proc.devRef .tc Cert.ReferenceIdeal.main_v47)
      = Cert.Spec.lsm (round (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (round (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg0)))) := by
  refine (Cert.ReferenceIdeal.Stretch.result (launchContents m' c)).trans ?_
  rw [reference_round, reference_round]
  exact Cert.ReferenceIdeal.RefSpec.lsm_eq _

end Cert.Bridge

end
-- ==== Proof.lean ====
/-
  The certificate of a two-round graph layer with a row log-softmax, against its jnp reference, over the extended reals.

  Each round applies two stacked affine layers to every node's 128 features, gathers the resulting rows at the source
  node of each of the 600000 edges and of the 50000 self loops, and sums the gathered rows into their destination
  nodes. The kernel program computes the layers and the final log-softmax in three tiled regions and the gather and
  the sum on the host; the reference does everything on the host. Over the extended reals both are
  `lsm (round (round x))` (Proof/Spec.lean, Proof/Bridge.lean): the affine layers are the same nested sums, the
  log-softmax the same shifted form, the host operations the same functions. The one place the two differ is a source
  node number outside the node range: the reference's gather clamps it, the kernel's replaces the row by a fixed word.
  The precondition keeps the source row of the edge list in -50000 … 49999, where a negative number counts from the
  end on both sides, so no row is replaced. The destination row needs nothing: both programs sum with the same
  operation.

  The three frames are the generated ones (the reference's is its run with the result dropped); nothing was rewritten
  by the ideal pass, so the idealization claim is trivial.
-/
import proofs.«403919_j39032662786372_1_alg».proof.Defs
import proofs.«403919_j39032662786372_1_alg».proof.Proof.Gen.Kernel
import proofs.«403919_j39032662786372_1_alg».proof.Proof.Gen.Kernel.Skeleton
import proofs.«403919_j39032662786372_1_alg».proof.Proof.Gen.Kernel.Launch
import proofs.«403919_j39032662786372_1_alg».proof.Proof.Gen.Kernel.Points
import proofs.«403919_j39032662786372_1_alg».proof.Proof.Gen.Kernel.Frame
import proofs.«403919_j39032662786372_1_alg».proof.Proof.Gen.KernelIdeal
import proofs.«403919_j39032662786372_1_alg».proof.Proof.Gen.KernelIdeal.Skeleton
import proofs.«403919_j39032662786372_1_alg».proof.Proof.Gen.KernelIdeal.Launch
import proofs.«403919_j39032662786372_1_alg».proof.Proof.Gen.KernelIdeal.Points
import proofs.«403919_j39032662786372_1_alg».proof.Proof.Gen.KernelIdeal.Frame
import proofs.«403919_j39032662786372_1_alg».proof.Proof.Gen.ReferenceIdeal
import proofs.«403919_j39032662786372_1_alg».proof.Proof.Gen.Pre_finite_inputs
import proofs.«403919_j39032662786372_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the log-softmax of two rounds over the node features: the kernel program by its run with
    the result named and its value under the precondition, the reference by its run and its value, the arguments
    agreeing. -/
theorem algebraic : Cert.algebraic_KernelIdeal_ReferenceIdeal := by
  intro m ρ m' ρ' hpre hagree
  refine ⟨fun c => Cert.Spec.lsm (Cert.Bridge.round
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.Bridge.round
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg0)))), ?_, ?_⟩
  · exact (θ_run Cert.KernelIdeal.defs _ _).mono (fun r h c => ⟨(h c).1.trans (Cert.Bridge.kernel_value m ρ c (hpre c)), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.Bridge.reference_value, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
